-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x8 : Shape := ⟨2, ![4096, 8]⟩
abbrev S2097152 : Shape := ⟨1, ![2097152]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x8 .f32) (main_arg2 : IVec S2097152 32) (main_arg3 : IVec S4096x4096 32) (main_arg4 : FVec F S4096x1 .f32) (main_arg5 : FVec F S4096x1 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x1 .f32 := Host.absf main_arg4
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg5
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg6 main_v13 main_v16
-- ==== Kernel.lean ====
abbrev S4x2048x4096 : Shape := ⟨3, ![4, 2048, 4096]⟩
abbrev S4096x8 : Shape := ⟨2, ![4096, 8]⟩
abbrev S2097152 : Shape := ⟨1, ![2097152]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S256x4096 : Shape := ⟨2, ![256, 4096]⟩
abbrev S256x1 : Shape := ⟨2, ![256, 1]⟩
abbrev S8192x4096 : Shape := ⟨2, ![8192, 4096]⟩
abbrev S1x4096 : Shape := ⟨2, ![1, 4096]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩

abbrev nBuf : Space → Nat
  | .hbm => 22
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096x4096, .i32⟩
  | .hbm, ⟨4, _⟩ => ⟨S4096x1, .f32⟩
  | .hbm, ⟨5, _⟩ => ⟨S4096x1, .f32⟩
  | .hbm, ⟨6, _⟩ => ⟨S4096, .f32⟩
  | .hbm, ⟨7, _⟩ => ⟨S_, .i32⟩
  | .hbm, ⟨8, _⟩ => ⟨S2097152, .i32⟩
  | .hbm, ⟨9, _⟩ => ⟨S2097152, .i1⟩
  | .hbm, ⟨10, _⟩ => ⟨S_, .i32⟩
  | .hbm, ⟨11, _⟩ => ⟨S2097152, .i32⟩
  | .hbm, ⟨12, _⟩ => ⟨S2097152, .i32⟩
  | .hbm, ⟨13, _⟩ => ⟨S2097152, .i32⟩
  | .hbm, ⟨14, _⟩ => ⟨S2097152x1, .i32⟩
  | .hbm, ⟨15, _⟩ => ⟨S2097152x8, .f32⟩
  | .hbm, ⟨16, _⟩ => ⟨S4096x4096, .f32⟩
  | .hbm, ⟨17, _⟩ => ⟨S4096x4096, .bf16⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x4096, .bf16⟩
  | .local _ .vmem, ⟨9, _⟩ => ⟨S256x4096, .bf16⟩
  | .local _ .vmem, ⟨10, _⟩ => ⟨S512x2048, .f32⟩
  | .local _ .vmem, ⟨11, _⟩ => ⟨S512x2048, .f32⟩
  | .local _ .vmem, ⟨12, _⟩ => ⟨S1024x2048, .bf16⟩
  | .local _ .vmem, ⟨13, _⟩ => ⟨S1024x2048, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 4, 2], ![false, false, false]⟩

def k1_cond2 (i : grid1.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x1_S256x1_0_0 : ∀ a, (![0, 0] : Fin 2 → Nat) a + S256x1.size a ≤ S256x1.size a
  h_S256x1 : 0 < S256x1.numel
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  gather_S4096x8_S2097152x1_S2097152x8_1_0_n_n_0_1_18_wf : GatherDims.WF S4096x8 S2097152x1 S2097152x8 [1] [0] [] [0] [] 1 ![1, 8]
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x4096.size a
  hwx1_0 : ∀ i : grid1.Coords, EltTy.bits .f32 = 32 ∨ (Rect.block (s := S8192x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v7) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x8 : Shape := ⟨2, ![4096, 8]⟩
abbrev S2097152 : Shape := ⟨1, ![2097152]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S1x1x4096 : Shape := ⟨3, ![1, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096x4096, .i32⟩
  | .hbm, ⟨4, _⟩ => ⟨S4096x1, .f32⟩
  | .hbm, ⟨5, _⟩ => ⟨S4096x1, .f32⟩
  | .hbm, ⟨6, _⟩ => ⟨S4096, .f32⟩
  | .hbm, ⟨7, _⟩ => ⟨S_, .i32⟩
  | .hbm, ⟨8, _⟩ => ⟨S2097152, .i32⟩
  | .hbm, ⟨9, _⟩ => ⟨S2097152, .i1⟩
  | .hbm, ⟨10, _⟩ => ⟨S_, .i32⟩
  | .hbm, ⟨11, _⟩ => ⟨S2097152, .i32⟩
  | .hbm, ⟨12, _⟩ => ⟨S2097152, .i32⟩
  | .hbm, ⟨13, _⟩ => ⟨S2097152, .i32⟩
  | .hbm, ⟨14, _⟩ => ⟨S2097152x1, .i32⟩
  | .hbm, ⟨15, _⟩ => ⟨S2097152x8, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4x2048x4096, .f32⟩
  | .hbm, ⟨56, _⟩ => ⟨S1x1x4096, .f32⟩
  | .hbm, ⟨57, _⟩ => ⟨S4x2048x4096, .f32⟩
  | .hbm, ⟨58, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x8_S2097152x1_S2097152x8_1_0_n_n_0_1_18_wf : GatherDims.WF S4096x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BitsSide.Dequant.lean ====
/-
  The first kernel region (the dequantisation): on a grid of 16 points, point t reads rows 256·t … 256·t+255 of the
  gathered table α, of the integer base, and of the per-row scale and zero columns, and writes the same rows of the
  quantised weight  scale · (clamp₀¹⁵(base + clamp₀¹(σ(α)·1.2 − 0.1) + zero) − zero).
  Here: what each window's staging buffer holds around the body at a point, the body's run, and the region's proof data,
  all stated at the contents V the region is entered with, for any float instance.
-/
import proofs.«164747_j21878563405861_1_alg».proof.Proof.Gen.Kernel.Launch
import proofs.«164747_j21878563405861_1_alg».proof.Proof.Gen.Kernel.Skeleton
import proofs.«164747_j21878563405861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Dequant

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256×4096 block and the whole 256×1 column, as the rectangles the body loads and stores through. -/
abbrev rBlk : Rect S256x4096 := Rect.unit (s := S256x4096) ![0, 0] S256x4096.size inb_S256x4096_S256x4096_0_0
abbrev rCol : Rect S256x1 := Rect.unit (s := S256x1) ![0, 0] S256x1.size inb_S256x1_S256x1_0_0

/-- What the body leaves in the output window's staging buffer, from the four input blocks: its one whole-block store. -/
def deqBlk (x0 : Vec F S256x4096 .f32) (x1 : Vec F S256x4096 .i32) (x2 x3 : Vec F S256x1 .f32) : Vec F S256x4096 .bf16 :=
  View.canon [⟨rBlk, k0_pay1 (View.ld x0 rBlk) (View.ld x1 rBlk) (View.ld x2 rCol) (View.ld x3 rCol)⟩]

/-- The region's proof data: arrays as found; after the body each input's buffer still holds its block and the output's
    holds `deqBlk` of the four input blocks; nothing owed; the invariant is the untouched scoped rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => deqBlk (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = deqBlk (iblk0 V c 0 t) (iblk0 V c 1 t) (iblk0 V c 2 t) (iblk0 V c 3 t) := by dsimp only [dat0]

/-- Each input window's current staging buffer holds its block at every point: the window is fetched at every point,
    never idle and never cut, so what is there before the body is what the fetch read off the array. -/
private theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

private theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

private theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

private theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one store's rectangle is the whole block, so it covers it. -/
private theorem cover0_4 (p0 : Vec F S256x4096 .bf16) (y : S256x4096.Idx) :
    ∃ pc ∈ ([⟨rBlk, p0⟩] : List (View.Piece (Elt F) S256x4096 .bf16)), y ∈ pc.1.set :=
  View.cover_of_tiled [⟨rBlk, p0⟩] S256x4096.size (by rfl) y

set_option maxHeartbeats 1000000 in
/-- The body on whole staging memrefs, the inputs' at contents x0 … x3 and the output's at anything, runs to the
    continuation holding the inputs' as they were and the output's at `deqBlk` of the inputs'. -/
private theorem sound_kernel0 (c : Dev nD) (E : Set ℕ) (i : grid0.Coords)
    (arg1 : Memref sig .tc .vmem S256x4096 .f32) (harg1 : arg1.IsWhole) (arg2 : Memref sig .tc .vmem S256x4096 .i32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x4096 .bf16) (harg5 : arg5.IsWhole)
    (x0 : Vec F S256x4096 .f32) (x1 : Vec F S256x4096 .i32) (x2 x3 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (deqBlk x0 x1 x2 x3)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

private theorem before0_0 (c : Dev nD) (t : Fin cfg0.N) (d) : (dat0 V c).before 0 t d = iblk0 V c 0 t :=
  before0_0_of V (dat0 V c) (A_eq0 V c 0) (after0_0 V c) t d
private theorem before0_1 (c : Dev nD) (t : Fin cfg0.N) (d) : (dat0 V c).before 1 t d = iblk0 V c 1 t :=
  before0_1_of V (dat0 V c) (A_eq0 V c 1) (after0_1 V c) t d
private theorem before0_2 (c : Dev nD) (t : Fin cfg0.N) (d) : (dat0 V c).before 2 t d = iblk0 V c 2 t :=
  before0_2_of V (dat0 V c) (A_eq0 V c 2) (after0_2 V c) t d
private theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and what is
    owed pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Dequant

end Cert.Kernel.Hand

end
-- ==== Proof.BitsSide.Matmul.lean ====
/-
  The second kernel region (the product with the quantised weight): on a grid 16 × 4 × 2, point (i, j, k) holds rows
  512·i … of x, rows 1024·j … of the weight, both restricted to columns 2048·k …, and the bias entries 1024·j ….
  A scratch block is carried from k = 0 to k = 1: at k = 0 it is reset to zero and receives the partial product of the
  first 2048 columns; at k = 1 the second partial product is added, and the block plus the bias row is stored into the
  output window, which is written back only then (at k = 0 the output window is idle).
  Here: the contents of the scratch after each point, of the output window after each odd point, the body's run in the
  two cases, and the region's proof data, at the contents V the region is entered with, for any float instance.
-/
import proofs.«164747_j21878563405861_1_alg».proof.Proof.Gen.Kernel.Launch
import proofs.«164747_j21878563405861_1_alg».proof.Proof.Gen.Kernel.Skeleton
import proofs.«164747_j21878563405861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Matmul

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried scratch block, a whole scoped buffer of the kernel's own. -/
abbrev scM1 : Memref sig .tc .vmem S512x1024 .f32 := Memref.whole cc1_scratch0

/-- What the scratch holds after the body at position n: at an even position (k = 0) the first partial product over the
    zero block; at an odd one (k = 1) the second partial product added to what the position before left. -/
def accAt (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 2 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_even (c : Dev nD) (t : Fin cfg1.N) (h : t.val % 2 = 0) :
    accAt V c t.val t.isLt = k1_pay2 (iblk1 V c 0 t) (iblk1 V c 1 t) (k1_pay1 (F := F)) := by
  obtain ⟨n, hn⟩ := t
  cases n with
  | zero => rfl
  | succ n => exact if_pos h

theorem accAt_odd (c : Dev nD) (t : Fin cfg1.N) (h : t.val % 2 = 1) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exfalso; (try dsimp only at h); omega
  | succ n => exact if_neg (fun h0 => by (try dsimp only at h); omega)

/-- What the output window's staging buffer holds after the body at point t (meaningful at the odd points, where the
    body stores it and the pipeline writes it back): the scratch plus the bias row. -/
def outAt (c : Dev nD) (t : Fin cfg1.N) : Vec F S512x1024 .f32 :=
  k1_pay3 (accAt V c t.val t.isLt) (iblk1 V c 2 t)

/-- The first region's ten staging buffers, which this region never touches, each whole at some contents. -/
def stgRest0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region invariant before position n: before the first point the scoped rest and the generator register as the
    launch hands them; afterwards the same with the scratch at what the position before left in it. -/
def PhiS (c : Dev nD) : (n : ℕ) → n ≤ cfg1.N → sProp 𝕄
  | 0, _ => Pipeline.ΦA spec1 c
  | n + 1, hn => iprop(owns (c : Thread nD τ) scM1 fullShare (accAt V c n hn) ∗ stgRest0 (F := F) c ∗ (∃ r, prngReg c r))

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

/-! ### The conditions and the idle points, decided over the grid -/

private theorem hz2 : (![0, 0] : Fin 2 → Nat) = fun _ => 0 := funext fun a => by fin_cases a <;> rfl

/-- A list of stores whose newest is a store of the whole 512 × 1024 block covers the block. -/
private theorem cover1 (w : Vec F S512x1024 .f32) (L : List (View.Piece (Elt F) S512x1024 .f32)) (y : S512x1024.Idx) :
    ∃ p ∈ (⟨Rect.unit ![0, 0] S512x1024.size inb_S512x1024_S512x1024_0_0, w⟩ : View.Piece (Elt F) S512x1024 .f32) :: L, y ∈ p.1.set :=
  ⟨_, List.mem_cons_self, View.mem_set_unit_zero hz2 inb_S512x1024_S512x1024_0_0 y⟩

/-- The condition of the body's first conditional (the reset of the scratch), from the grid coordinates: k = 0. -/
private abbrev cond1_0 (i : grid1.Coords) : Prop := (Scalar.cmpi .ne (Scalar.extui (Scalar.cmpi .eq (BitVec.ofNat 32 (i 2).val) 0#32)) 0#32) = 1#1
/-- It holds at the even points. -/
private theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second conditional (the store into the output window): k = 1. -/
private abbrev cond1_1 (i : grid1.Coords) : Prop := k1_cond2 i = 1#1
/-- It holds at the odd points. -/
private theorem hcond1_1 : ∀ t : Fin cfg1.N, cond1_1 (grid1.coords t) ↔ t.val % 2 = 1 :=
  (by decide +kernel : ∀ t : Fin grid1.N, cond1_1 (grid1.coords t) ↔ t.val % 2 = 1)

/-- The input windows are never idle. -/
private theorem liveAt1_0 : ∀ t : Fin cfg1.N, cfg1.idle 0 (grid1.coords t) = false := by decide +kernel
private theorem liveAt1_1 : ∀ t : Fin cfg1.N, cfg1.idle 1 (grid1.coords t) = false := by decide +kernel
private theorem liveAt1_2 : ∀ t : Fin cfg1.N, cfg1.idle 2 (grid1.coords t) = false := by decide +kernel
/-- The output window is idle at the even points, and not written back there; it is live at the odd points. -/
private theorem idleAt1_3_E : ∀ t : Fin cfg1.N, t.val % 2 = 0 → cfg1.idle 3 (grid1.coords t) = true := by decide +kernel
private theorem noFlush1_3_E : ∀ t : Fin cfg1.N, t.val % 2 = 0 → (cfg1.win 3).flush t = false := by decide +kernel
private theorem liveAt1_3_O : ∀ t : Fin cfg1.N, t.val % 2 = 1 → cfg1.idle 3 (grid1.coords t) = false := by decide +kernel

/-! ### The body's run in its two cases, on any whole memrefs -/

set_option maxHeartbeats 1000000 in
/-- The body at a point with k = 0, on whole memrefs: the inputs at x, w, b, the output window's buffer at anything
    (handed back untouched), the scratch at anything; it leaves in the scratch the first partial product over the
    zero block. -/
theorem kernel1_even (c : Dev nD) (E : Set ℕ) (i : grid1.Coords)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : cond1_0 i) (hc1 : ¬cond1_1 i)
    (x0 : Vec F S512x2048 .f32) (x1 : Vec F S1024x2048 .bf16) (x2 : Vec F S1x1024 .f32) (xi3 : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS0
  ipureintro
  rw [View.read_writes_eq_canon _ _ _ (cover1 _ _)]
  sl_unfold_words
  rw [View.canon_cons_unit_zero (S := S512x1024) hz2]
  simp only [View.readAt_eq_ld, harg3.read_unread, harg4.read_unread, View.ld_unit_zero (S := S512x2048) hz2,
    View.ld_unit_zero (S := S1024x2048) hz2, View.readCov_unit_zero (S := S512x1024) _ hz2]

set_option maxHeartbeats 1000000 in
/-- The body at a point with k = 1, on whole memrefs: the inputs at x, w, b, the output window's buffer at anything,
    the scratch at s; it leaves in the scratch s plus the second partial product, and in the output window's buffer
    that plus the bias row. -/
theorem kernel1_odd (c : Dev nD) (E : Set ℕ) (i : grid1.Coords)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬cond1_0 i) (hc1 : cond1_1 i)
    (x0 : Vec F S512x2048 .f32) (x1 : Vec F S1024x2048 .bf16) (x2 : Vec F S1x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (cover1 _ _),
      View.canon_unit_zero (S := S512x1024) hz2]
    simp only [View.readAt_eq_ld, harg3.read_unread, harg4.read_unread, harg5.read_unread, harg7.read_unread,
      View.ld_unit_zero (S := S512x2048) hz2, View.ld_unit_zero (S := S1024x2048) hz2, View.ld_unit_zero (S := S1x1024) hz2,
      View.ld_unit_zero (S := S512x1024) hz2, View.readCov_unit_zero (S := S512x1024) _ hz2]
  iexists _; isplitr
  swap; · iexact HS0
  ipureintro
  sl_unfold_words
  rw [View.read_writes_eq_canon _ _ _ (cover1 _ _),
    View.canon_unit_zero (S := S512x1024) hz2]
  simp only [View.readAt_eq_ld, harg3.read_unread, harg4.read_unread, harg7.read_unread,
    View.ld_unit_zero (S := S512x2048) hz2, View.ld_unit_zero (S := S1024x2048) hz2, View.ld_unit_zero (S := S512x1024) hz2]

/-! ### What the input windows' buffers hold, and the invariant -/

/-- Each input window's current staging buffer holds its block at every point, fetched there or not. -/
private theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
private theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
private theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the launch hands the region: the scratch at some contents, the first region's staging buffers, the generator
    register. -/
private theorem PhiA1_eq (c : Dev nD) :
    (Pipeline.ΦA spec1 c : sProp 𝕄)
      = iprop((∃ d, owns (c : Thread nD τ) scM1 fullShare d) ∗ stgRest0 (F := F) c ∗ (∃ r, prngReg c r)) := by
  unfold Pipeline.ΦA; rw [scopedRest1_eq]; unfold stgRest0; simp only [scM1, owns_whole]
  refine BI.Entails.antisymm ?_ ?_
  · show (_ : sProp 𝕄) ⊢ _
    iintro ⟨⟨A0, A1, A2, A3, A4, A5, A6, A7, A8, A9, HS⟩, Hg⟩
    isplitl [HS]; · iexact HS
    isplitr [Hg]; swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · show (_ : sProp 𝕄) ⊢ _
    iintro ⟨HS, ⟨A0, A1, A2, A3, A4, A5, A6, A7, A8, A9⟩, Hg⟩
    isplitr [Hg]; swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS

private theorem PhiS_zero (c : Dev nD) (n : ℕ) (h : n ≤ cfg1.N) (hz : n = 0) : PhiS V c n h = Pipeline.ΦA spec1 c := by
  subst hz; rfl

/-- After position n: the scratch at that position's contents. -/
private theorem PhiS_succ (c : Dev nD) (n : ℕ) (hn : n < cfg1.N) :
    PhiS V c (n + 1) hn = iprop(owns (c : Thread nD τ) scM1 fullShare (accAt V c n hn) ∗ stgRest0 (F := F) c ∗ (∃ r, prngReg c r)) := rfl

/-- Before a position that is not the first: the scratch at what the position before left. -/
private theorem PhiS_pos (c : Dev nD) (n : ℕ) (h : n ≤ cfg1.N) (hz : n ≠ 0) :
    PhiS V c n h = iprop(owns (c : Thread nD τ) scM1 fullShare (accAt V c (n - 1) (by omega)) ∗ stgRest0 (F := F) c ∗ (∃ r, prngReg c r)) := by
  cases n with
  | zero => exact absurd rfl hz
  | succ n => rfl

/-- The invariant at a point's start, restated at the point's position. -/
private theorem PhiS_castSucc (c : Dev nD) (t : Fin cfg1.N) :
    (dat1 V c).Φ t.castSucc = PhiS V c t.val (Nat.le_of_lt t.isLt) := by
  dsimp only [dat1]; simp only [Fin.coe_castSucc]

/-! ### The body obligation, at a generic point -/

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

/-- and what it returns. -/
private def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' buffers hold their blocks; at an even point the scratch (at anything) is reset
    and receives the first partial product, the output window's buffer is handed back as found; at an odd point the
    scratch holds what the point before left, receives the second partial product, and the output window's buffer
    receives that plus the bias row. The first region's staging buffers and the generator register pass through. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_E t h0) (noFlush1_3_E t h0)]
    rw [accAt_even V c t h0]
    by_cases hz : t.val = 0
    · rw [PhiS_castSucc V c t, PhiS_zero V c _ _ hz, PhiA1_eq]
      iintro ⟨⟨HS0, Hr, Hg⟩, Ho, ⟨%d0, H0⟩, ⟨%d1, H1⟩, ⟨%d2, H2⟩, ⟨%d3, H3⟩⟩
      iapply (kernel1_even c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS0, Hr, Hg⟩, Ho, ⟨%d0, H0⟩, ⟨%d1, H1⟩, ⟨%d2, H2⟩, ⟨%d3, H3⟩⟩
      iapply (kernel1_even c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (win1_3.stage (cfg1.slots t 3)) fullShare ((dat1 V c).after 3 t) from by
      unfold Dat.leavesExact; rw [liveAt1_3_O t h1], after1_3]
    unfold outAt
    rw [accAt_odd V c t h1]
    rw [PhiS_castSucc V c t, PhiS_pos V c _ _ hz]
    iintro ⟨⟨HS0, Hr, Hg⟩, Ho, ⟨%d0, H0⟩, ⟨%d1, H1⟩, ⟨%d2, H2⟩, ⟨%d3, H3⟩⟩
    iapply (kernel1_odd c Set.univ (grid1.coords t) _ _ _ _ _ _ _ _ _ _ (fun h => h0 ((hcond1_0 t).mp h)) ((hcond1_1 t).mpr h1)
        (iblk1 V c 0 t) (iblk1 V c 1 t) (iblk1 V c 2 t) (accAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hr Hg]
    · isplitl [HS0]; · iexact HS0
      isplitl [Hr]; · iexact Hr
      iexact Hg
    isplitl [Ho]; · iexact Ho
    isplitl [H0]; · iexact H0
    isplitl [H1]; · iexact H1
    isplitl [H2]; · iexact H2
    iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest and the generator register back. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨HS0, Hr, Hg⟩
  isplitl [HS0]; · iexists _; iexact HS0
  isplitl [Hr]; · iexact Hr
  iexact Hg

end Matmul

end Cert.Kernel.Hand

end
-- ==== Proof.BitsSide.Run.lean ====
/-
  The whole program as a run: host operations (the gather of the code book and its re-laying as a 4096 × 4096 table),
  the dequantisation region, two re-layings (x as 8192 × 4096, the bias as a row), the product region, and the final
  re-laying of the result. The contents of every buffer are followed from the launch memory through each of these five
  stretches (W0 … W5): a host stretch applies its operations; a region leaves its arrays at what its write-backs fold to
  and every other buffer as entered. Every weakly fair execution terminates with every unscoped buffer at W5; in
  particular the seven argument arrays end as launched.
-/
import proofs.«164747_j21878563405861_1_alg».proof.Proof.BitsSide.Dequant
import proofs.«164747_j21878563405861_1_alg».proof.Proof.BitsSide.Matmul
import proofs.«164747_j21878563405861_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the gather and its re-laying (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two re-layings (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the final re-laying (the return). -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W5 m c) ∗ ∃ r, prngReg c r)

/-! ## The regions as segments -/

/-- The generator register and the scoped rest make the second region's launch invariant (whatever else is handed over
    beside them is dropped), -/
theorem toΦA1 (c : Dev nD) (Pf : sProp 𝕄) :
    iprop((∃ r, prngReg c r) ∗ Pf ∗ Pipeline.scopedRest spec1 c) ⊢ (Pipeline.ΦA spec1 c : sProp 𝕄) := by
  unfold Pipeline.ΦA
  iintro ⟨Hp, -, Hr⟩
  isplitl [Hr]; · iexact Hr
  iexact Hp
/-- and it gives them back. -/
theorem ofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The dequantisation region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered from every unscoped buffer at W3, left at W4. The generator register and the scoped
    rest go into the region's invariant, which follows the scratch block point by point, and come back out of it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c _).trans (hin1 (V3 m) c)
  hout c := by
    rw [Pipeline.ownSems0_none]
    exact (hout1 (V3 m) c).trans (ofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- Every weakly fair execution of the program from memory m with zero counters terminates, nothing faulting, with every
    unscoped buffer of every core at W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

variable (c : Dev nD)

/-! ## What each stretch leaves in the buffers the later ones read -/

/-- No host operation before the first region writes a reference outside its own results. -/
theorem W1_keep (b : Ref sig .tc) (h : b ∉ hostOps0_W) : W1 m c (Proc.devRef .tc b) = m ((c : Thread nD τ).loc b) :=
  StableHlo.after_of_writes_sub hostOps0 _ hostOps0_writes h

/-- An input array of the first region is left as entered. -/
theorem W2_in (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

theorem W3_keep (b : Ref sig .tc) (h : b ∉ hostOps1_W) : W3 m c (Proc.devRef .tc b) = W2 m c (Proc.devRef .tc b) :=
  StableHlo.after_of_writes_sub hostOps1 _ hostOps1_writes h

theorem W5_keep (b : Ref sig .tc) (h : b ∉ hostOps2_W) : W5 m c (Proc.devRef .tc b) = W4 m c (Proc.devRef .tc b) :=
  StableHlo.after_of_writes_sub hostOps2 _ hostOps2_writes h

/-- The seven argument arrays end as launched: no host stretch writes one, and a region reads one through an input
    window or not at all. -/
theorem W5_args :
    W5 m c (Proc.devRef .tc main_arg0) = m ((c : Thread nD τ).loc main_arg0)
    ∧ W5 m c (Proc.devRef .tc main_arg1) = m ((c : Thread nD τ).loc main_arg1)
    ∧ W5 m c (Proc.devRef .tc main_arg2) = m ((c : Thread nD τ).loc main_arg2)
    ∧ W5 m c (Proc.devRef .tc main_arg3) = m ((c : Thread nD τ).loc main_arg3)
    ∧ W5 m c (Proc.devRef .tc main_arg4) = m ((c : Thread nD τ).loc main_arg4)
    ∧ W5 m c (Proc.devRef .tc main_arg5) = m ((c : Thread nD τ).loc main_arg5)
    ∧ W5 m c (Proc.devRef .tc main_arg6) = m ((c : Thread nD τ).loc main_arg6) := by
  refine ⟨?_, ?_, ?_, ?_, ?_, ?_, ?_⟩
  · exact (W5_keep m c main_arg0 (by decide)).trans <| (W4_of_ne m c main_arg0 (by decide)).trans <|
      (W3_keep m c main_arg0 (by decide)).trans <| (W2_of_ne m c main_arg0 (by decide)).trans <| W1_keep m c main_arg0 (by decide)
  · exact (W5_keep m c main_arg1 (by decide)).trans <| (W4_of_ne m c main_arg1 (by decide)).trans <|
      (W3_keep m c main_arg1 (by decide)).trans <| (W2_of_ne m c main_arg1 (by decide)).trans <| W1_keep m c main_arg1 (by decide)
  · exact (W5_keep m c main_arg2 (by decide)).trans <| (W4_of_ne m c main_arg2 (by decide)).trans <|
      (W3_keep m c main_arg2 (by decide)).trans <| (W2_of_ne m c main_arg2 (by decide)).trans <| W1_keep m c main_arg2 (by decide)
  · exact (W5_keep m c main_arg3 (by decide)).trans <| (W4_of_ne m c main_arg3 (by decide)).trans <|
      (W3_keep m c main_arg3 (by decide)).trans <| (W2_in m c 1 rfl).trans <| W1_keep m c main_arg3 (by decide)
  · exact (W5_keep m c main_arg4 (by decide)).trans <| (W4_of_ne m c main_arg4 (by decide)).trans <|
      (W3_keep m c main_arg4 (by decide)).trans <| (W2_in m c 2 rfl).trans <| W1_keep m c main_arg4 (by decide)
  · exact (W5_keep m c main_arg5 (by decide)).trans <| (W4_of_ne m c main_arg5 (by decide)).trans <|
      (W3_keep m c main_arg5 (by decide)).trans <| (W2_in m c 3 rfl).trans <| W1_keep m c main_arg5 (by decide)
  · exact (W5_keep m c main_arg6 (by decide)).trans <| (W4_of_ne m c main_arg6 (by decide)).trans <|
      (W3_keep m c main_arg6 (by decide)).trans <| (W2_of_ne m c main_arg6 (by decide)).trans <| W1_keep m c main_arg6 (by decide)

/-- So every weakly fair execution terminates with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_args m c).1,
     (h c _ (mem_uc main_arg1 (by decide))).trans (W5_args m c).2.1,
     (h c _ (mem_uc main_arg2 (by decide))).trans (W5_args m c).2.2.1,
     (h c _ (mem_uc main_arg3 (by decide))).trans (W5_args m c).2.2.2.1,
     (h c _ (mem_uc main_arg4 (by decide))).trans (W5_args m c).2.2.2.2.1,
     (h c _ (mem_uc main_arg5 (by decide))).trans (W5_args m c).2.2.2.2.2.1,
     (h c _ (mem_uc main_arg6 (by decide))).trans (W5_args m c).2.2.2.2.2.2⟩) (run_all m ρ)

end Cert.Kernel.Hand

end
-- ==== Proof.IdealSide.Dequant.lean ====
/-
  The first kernel region (the dequantisation): on a grid of 16 points, point t reads rows 256·t … 256·t+255 of the
  gathered table α, of the integer base, and of the per-row scale and zero columns, and writes the same rows of the
  quantised weight  scale · (clamp₀¹⁵(base + clamp₀¹(σ(α)·1.2 − 0.1) + zero) − zero).
  Here: what each window's staging buffer holds around the body at a point, the body's run, and the region's proof data,
  all stated at the contents V the region is entered with, for any float instance.
-/
import proofs.«164747_j21878563405861_1_alg».proof.Proof.Gen.KernelIdeal.Launch
import proofs.«164747_j21878563405861_1_alg».proof.Proof.Gen.KernelIdeal.Skeleton
import proofs.«164747_j21878563405861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Dequant

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256×4096 block and the whole 256×1 column, as the rectangles the body loads and stores through. -/
abbrev rBlk : Rect S256x4096 := Rect.unit (s := S256x4096) ![0, 0] S256x4096.size inb_S256x4096_S256x4096_0_0
abbrev rCol : Rect S256x1 := Rect.unit (s := S256x1) ![0, 0] S256x1.size inb_S256x1_S256x1_0_0

/-- What the body leaves in the output window's staging buffer, from the four input blocks: its one whole-block store. -/
def deqBlk (x0 : Vec F S256x4096 .f32) (x1 : Vec F S256x4096 .i32) (x2 x3 : Vec F S256x1 .f32) : Vec F S256x4096 .bf16 :=
  View.canon [⟨rBlk, k0_pay1 (View.ld x0 rBlk) (View.ld x1 rBlk) (View.ld x2 rCol) (View.ld x3 rCol)⟩]

/-- The region's proof data: arrays as found; after the body each input's buffer still holds its block and the output's
    holds `deqBlk` of the four input blocks; nothing owed; the invariant is the untouched scoped rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => deqBlk (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = deqBlk (iblk0 V c 0 t) (iblk0 V c 1 t) (iblk0 V c 2 t) (iblk0 V c 3 t) := by dsimp only [dat0]

/-- Each input window's current staging buffer holds its block at every point: the window is fetched at every point,
    never idle and never cut, so what is there before the body is what the fetch read off the array. -/
private theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

private theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

private theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

private theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one store's rectangle is the whole block, so it covers it. -/
private theorem cover0_4 (p0 : Vec F S256x4096 .bf16) (y : S256x4096.Idx) :
    ∃ pc ∈ ([⟨rBlk, p0⟩] : List (View.Piece (Elt F) S256x4096 .bf16)), y ∈ pc.1.set :=
  View.cover_of_tiled [⟨rBlk, p0⟩] S256x4096.size (by rfl) y

set_option maxHeartbeats 1000000 in
/-- The body on whole staging memrefs, the inputs' at contents x0 … x3 and the output's at anything, runs to the
    continuation holding the inputs' as they were and the output's at `deqBlk` of the inputs'. -/
private theorem sound_kernel0 (c : Dev nD) (E : Set ℕ) (i : grid0.Coords)
    (arg1 : Memref sig .tc .vmem S256x4096 .f32) (harg1 : arg1.IsWhole) (arg2 : Memref sig .tc .vmem S256x4096 .i32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x4096 .bf16) (harg5 : arg5.IsWhole)
    (x0 : Vec F S256x4096 .f32) (x1 : Vec F S256x4096 .i32) (x2 x3 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (deqBlk x0 x1 x2 x3)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

private theorem before0_0 (c : Dev nD) (t : Fin cfg0.N) (d) : (dat0 V c).before 0 t d = iblk0 V c 0 t :=
  before0_0_of V (dat0 V c) (A_eq0 V c 0) (after0_0 V c) t d
private theorem before0_1 (c : Dev nD) (t : Fin cfg0.N) (d) : (dat0 V c).before 1 t d = iblk0 V c 1 t :=
  before0_1_of V (dat0 V c) (A_eq0 V c 1) (after0_1 V c) t d
private theorem before0_2 (c : Dev nD) (t : Fin cfg0.N) (d) : (dat0 V c).before 2 t d = iblk0 V c 2 t :=
  before0_2_of V (dat0 V c) (A_eq0 V c 2) (after0_2 V c) t d
private theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and what is
    owed pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Dequant

end Cert.KernelIdeal.Hand

end
-- ==== Proof.IdealSide.Matmul.lean ====
/-
  The second kernel region (the product with the quantised weight): on a grid 16 × 4 × 2, point (i, j, k) holds rows
  512·i … of x, rows 1024·j … of the weight, both restricted to columns 2048·k …, and the bias entries 1024·j ….
  A scratch block is carried from k = 0 to k = 1: at k = 0 it is reset to zero and receives the partial product of the
  first 2048 columns; at k = 1 the second partial product is added, and the block plus the bias row is stored into the
  output window, which is written back only then (at k = 0 the output window is idle).
  Here: the contents of the scratch after each point, of the output window after each odd point, the body's run in the
  two cases, and the region's proof data, at the contents V the region is entered with, for any float instance.
-/
import proofs.«164747_j21878563405861_1_alg».proof.Proof.Gen.KernelIdeal.Launch
import proofs.«164747_j21878563405861_1_alg».proof.Proof.Gen.KernelIdeal.Skeleton
import proofs.«164747_j21878563405861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Matmul

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried scratch block, a whole scoped buffer of the kernel's own. -/
abbrev scM1 : Memref sig .tc .vmem S512x1024 .f32 := Memref.whole cc1_scratch0

/-- What the scratch holds after the body at position n: at an even position (k = 0) the first partial product over the
    zero block; at an odd one (k = 1) the second partial product added to what the position before left. -/
def accAt (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 2 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_even (c : Dev nD) (t : Fin cfg1.N) (h : t.val % 2 = 0) :
    accAt V c t.val t.isLt = k1_pay2 (iblk1 V c 0 t) (iblk1 V c 1 t) (k1_pay1 (F := F)) := by
  obtain ⟨n, hn⟩ := t
  cases n with
  | zero => rfl
  | succ n => exact if_pos h

theorem accAt_odd (c : Dev nD) (t : Fin cfg1.N) (h : t.val % 2 = 1) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exfalso; (try dsimp only at h); omega
  | succ n => exact if_neg (fun h0 => by (try dsimp only at h); omega)

/-- What the output window's staging buffer holds after the body at point t (meaningful at the odd points, where the
    body stores it and the pipeline writes it back): the scratch plus the bias row. -/
def outAt (c : Dev nD) (t : Fin cfg1.N) : Vec F S512x1024 .f32 :=
  k1_pay3 (accAt V c t.val t.isLt) (iblk1 V c 2 t)

/-- The first region's ten staging buffers, which this region never touches, each whole at some contents. -/
def stgRest0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region invariant before position n: before the first point the scoped rest and the generator register as the
    launch hands them; afterwards the same with the scratch at what the position before left in it. -/
def PhiS (c : Dev nD) : (n : ℕ) → n ≤ cfg1.N → sProp 𝕄
  | 0, _ => Pipeline.ΦA spec1 c
  | n + 1, hn => iprop(owns (c : Thread nD τ) scM1 fullShare (accAt V c n hn) ∗ stgRest0 (F := F) c ∗ (∃ r, prngReg c r))

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

/-! ### The conditions and the idle points, decided over the grid -/

private theorem hz2 : (![0, 0] : Fin 2 → Nat) = fun _ => 0 := funext fun a => by fin_cases a <;> rfl

/-- A list of stores whose newest is a store of the whole 512 × 1024 block covers the block. -/
private theorem cover1 (w : Vec F S512x1024 .f32) (L : List (View.Piece (Elt F) S512x1024 .f32)) (y : S512x1024.Idx) :
    ∃ p ∈ (⟨Rect.unit ![0, 0] S512x1024.size inb_S512x1024_S512x1024_0_0, w⟩ : View.Piece (Elt F) S512x1024 .f32) :: L, y ∈ p.1.set :=
  ⟨_, List.mem_cons_self, View.mem_set_unit_zero hz2 inb_S512x1024_S512x1024_0_0 y⟩

/-- The condition of the body's first conditional (the reset of the scratch), from the grid coordinates: k = 0. -/
private abbrev cond1_0 (i : grid1.Coords) : Prop := (Scalar.cmpi .ne (Scalar.extui (Scalar.cmpi .eq (BitVec.ofNat 32 (i 2).val) 0#32)) 0#32) = 1#1
/-- It holds at the even points. -/
private theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second conditional (the store into the output window): k = 1. -/
private abbrev cond1_1 (i : grid1.Coords) : Prop := k1_cond2 i = 1#1
/-- It holds at the odd points. -/
private theorem hcond1_1 : ∀ t : Fin cfg1.N, cond1_1 (grid1.coords t) ↔ t.val % 2 = 1 :=
  (by decide +kernel : ∀ t : Fin grid1.N, cond1_1 (grid1.coords t) ↔ t.val % 2 = 1)

/-- The input windows are never idle. -/
private theorem liveAt1_0 : ∀ t : Fin cfg1.N, cfg1.idle 0 (grid1.coords t) = false := by decide +kernel
private theorem liveAt1_1 : ∀ t : Fin cfg1.N, cfg1.idle 1 (grid1.coords t) = false := by decide +kernel
private theorem liveAt1_2 : ∀ t : Fin cfg1.N, cfg1.idle 2 (grid1.coords t) = false := by decide +kernel
/-- The output window is idle at the even points, and not written back there; it is live at the odd points. -/
private theorem idleAt1_3_E : ∀ t : Fin cfg1.N, t.val % 2 = 0 → cfg1.idle 3 (grid1.coords t) = true := by decide +kernel
private theorem noFlush1_3_E : ∀ t : Fin cfg1.N, t.val % 2 = 0 → (cfg1.win 3).flush t = false := by decide +kernel
private theorem liveAt1_3_O : ∀ t : Fin cfg1.N, t.val % 2 = 1 → cfg1.idle 3 (grid1.coords t) = false := by decide +kernel

/-! ### The body's run in its two cases, on any whole memrefs -/

set_option maxHeartbeats 1000000 in
/-- The body at a point with k = 0, on whole memrefs: the inputs at x, w, b, the output window's buffer at anything
    (handed back untouched), the scratch at anything; it leaves in the scratch the first partial product over the
    zero block. -/
theorem kernel1_even (c : Dev nD) (E : Set ℕ) (i : grid1.Coords)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : cond1_0 i) (hc1 : ¬cond1_1 i)
    (x0 : Vec F S512x2048 .f32) (x1 : Vec F S1024x2048 .bf16) (x2 : Vec F S1x1024 .f32) (xi3 : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS0
  ipureintro
  rw [View.read_writes_eq_canon _ _ _ (cover1 _ _)]
  sl_unfold_words
  rw [View.canon_cons_unit_zero (S := S512x1024) hz2]
  simp only [View.readAt_eq_ld, harg3.read_unread, harg4.read_unread, View.ld_unit_zero (S := S512x2048) hz2,
    View.ld_unit_zero (S := S1024x2048) hz2, View.readCov_unit_zero (S := S512x1024) _ hz2]

set_option maxHeartbeats 1000000 in
/-- The body at a point with k = 1, on whole memrefs: the inputs at x, w, b, the output window's buffer at anything,
    the scratch at s; it leaves in the scratch s plus the second partial product, and in the output window's buffer
    that plus the bias row. -/
theorem kernel1_odd (c : Dev nD) (E : Set ℕ) (i : grid1.Coords)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬cond1_0 i) (hc1 : cond1_1 i)
    (x0 : Vec F S512x2048 .f32) (x1 : Vec F S1024x2048 .bf16) (x2 : Vec F S1x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (cover1 _ _),
      View.canon_unit_zero (S := S512x1024) hz2]
    simp only [View.readAt_eq_ld, harg3.read_unread, harg4.read_unread, harg5.read_unread, harg7.read_unread,
      View.ld_unit_zero (S := S512x2048) hz2, View.ld_unit_zero (S := S1024x2048) hz2, View.ld_unit_zero (S := S1x1024) hz2,
      View.ld_unit_zero (S := S512x1024) hz2, View.readCov_unit_zero (S := S512x1024) _ hz2]
  iexists _; isplitr
  swap; · iexact HS0
  ipureintro
  sl_unfold_words
  rw [View.read_writes_eq_canon _ _ _ (cover1 _ _),
    View.canon_unit_zero (S := S512x1024) hz2]
  simp only [View.readAt_eq_ld, harg3.read_unread, harg4.read_unread, harg7.read_unread,
    View.ld_unit_zero (S := S512x2048) hz2, View.ld_unit_zero (S := S1024x2048) hz2, View.ld_unit_zero (S := S512x1024) hz2]

/-! ### What the input windows' buffers hold, and the invariant -/

/-- Each input window's current staging buffer holds its block at every point, fetched there or not. -/
private theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
private theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
private theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the launch hands the region: the scratch at some contents, the first region's staging buffers, the generator
    register. -/
private theorem PhiA1_eq (c : Dev nD) :
    (Pipeline.ΦA spec1 c : sProp 𝕄)
      = iprop((∃ d, owns (c : Thread nD τ) scM1 fullShare d) ∗ stgRest0 (F := F) c ∗ (∃ r, prngReg c r)) := by
  unfold Pipeline.ΦA; rw [scopedRest1_eq]; unfold stgRest0; simp only [scM1, owns_whole]
  refine BI.Entails.antisymm ?_ ?_
  · show (_ : sProp 𝕄) ⊢ _
    iintro ⟨⟨A0, A1, A2, A3, A4, A5, A6, A7, A8, A9, HS⟩, Hg⟩
    isplitl [HS]; · iexact HS
    isplitr [Hg]; swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · show (_ : sProp 𝕄) ⊢ _
    iintro ⟨HS, ⟨A0, A1, A2, A3, A4, A5, A6, A7, A8, A9⟩, Hg⟩
    isplitr [Hg]; swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS

private theorem PhiS_zero (c : Dev nD) (n : ℕ) (h : n ≤ cfg1.N) (hz : n = 0) : PhiS V c n h = Pipeline.ΦA spec1 c := by
  subst hz; rfl

/-- After position n: the scratch at that position's contents. -/
private theorem PhiS_succ (c : Dev nD) (n : ℕ) (hn : n < cfg1.N) :
    PhiS V c (n + 1) hn = iprop(owns (c : Thread nD τ) scM1 fullShare (accAt V c n hn) ∗ stgRest0 (F := F) c ∗ (∃ r, prngReg c r)) := rfl

/-- Before a position that is not the first: the scratch at what the position before left. -/
private theorem PhiS_pos (c : Dev nD) (n : ℕ) (h : n ≤ cfg1.N) (hz : n ≠ 0) :
    PhiS V c n h = iprop(owns (c : Thread nD τ) scM1 fullShare (accAt V c (n - 1) (by omega)) ∗ stgRest0 (F := F) c ∗ (∃ r, prngReg c r)) := by
  cases n with
  | zero => exact absurd rfl hz
  | succ n => rfl

/-- The invariant at a point's start, restated at the point's position. -/
private theorem PhiS_castSucc (c : Dev nD) (t : Fin cfg1.N) :
    (dat1 V c).Φ t.castSucc = PhiS V c t.val (Nat.le_of_lt t.isLt) := by
  dsimp only [dat1]; simp only [Fin.coe_castSucc]

/-! ### The body obligation, at a generic point -/

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

/-- and what it returns. -/
private def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' buffers hold their blocks; at an even point the scratch (at anything) is reset
    and receives the first partial product, the output window's buffer is handed back as found; at an odd point the
    scratch holds what the point before left, receives the second partial product, and the output window's buffer
    receives that plus the bias row. The first region's staging buffers and the generator register pass through. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_E t h0) (noFlush1_3_E t h0)]
    rw [accAt_even V c t h0]
    by_cases hz : t.val = 0
    · rw [PhiS_castSucc V c t, PhiS_zero V c _ _ hz, PhiA1_eq]
      iintro ⟨⟨HS0, Hr, Hg⟩, Ho, ⟨%d0, H0⟩, ⟨%d1, H1⟩, ⟨%d2, H2⟩, ⟨%d3, H3⟩⟩
      iapply (kernel1_even c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS0, Hr, Hg⟩, Ho, ⟨%d0, H0⟩, ⟨%d1, H1⟩, ⟨%d2, H2⟩, ⟨%d3, H3⟩⟩
      iapply (kernel1_even c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (win1_3.stage (cfg1.slots t 3)) fullShare ((dat1 V c).after 3 t) from by
      unfold Dat.leavesExact; rw [liveAt1_3_O t h1], after1_3]
    unfold outAt
    rw [accAt_odd V c t h1]
    rw [PhiS_castSucc V c t, PhiS_pos V c _ _ hz]
    iintro ⟨⟨HS0, Hr, Hg⟩, Ho, ⟨%d0, H0⟩, ⟨%d1, H1⟩, ⟨%d2, H2⟩, ⟨%d3, H3⟩⟩
    iapply (kernel1_odd c Set.univ (grid1.coords t) _ _ _ _ _ _ _ _ _ _ (fun h => h0 ((hcond1_0 t).mp h)) ((hcond1_1 t).mpr h1)
        (iblk1 V c 0 t) (iblk1 V c 1 t) (iblk1 V c 2 t) (accAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hr Hg]
    · isplitl [HS0]; · iexact HS0
      isplitl [Hr]; · iexact Hr
      iexact Hg
    isplitl [Ho]; · iexact Ho
    isplitl [H0]; · iexact H0
    isplitl [H1]; · iexact H1
    isplitl [H2]; · iexact H2
    iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest and the generator register back. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨HS0, Hr, Hg⟩
  isplitl [HS0]; · iexists _; iexact HS0
  isplitl [Hr]; · iexact Hr
  iexact Hg

end Matmul

end Cert.KernelIdeal.Hand

end
-- ==== Proof.IdealSide.Run.lean ====
/-
  The whole program as a run: host operations (the gather of the code book and its re-laying as a 4096 × 4096 table),
  the dequantisation region, two re-layings (x as 8192 × 4096, the bias as a row), the product region, and the final
  re-laying of the result. The contents of every buffer are followed from the launch memory through each of these five
  stretches (W0 … W5): a host stretch applies its operations; a region leaves its arrays at what its write-backs fold to
  and every other buffer as entered. Every weakly fair execution terminates with every unscoped buffer at W5; in
  particular the seven argument arrays end as launched.
-/
import proofs.«164747_j21878563405861_1_alg».proof.Proof.IdealSide.Dequant
import proofs.«164747_j21878563405861_1_alg».proof.Proof.IdealSide.Matmul
import proofs.«164747_j21878563405861_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the gather and its re-laying (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two re-layings (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the final re-laying (the return). -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W5 m c) ∗ ∃ r, prngReg c r)

/-! ## The regions as segments -/

/-- The generator register and the scoped rest make the second region's launch invariant (whatever else is handed over
    beside them is dropped), -/
theorem toΦA1 (c : Dev nD) (Pf : sProp 𝕄) :
    iprop((∃ r, prngReg c r) ∗ Pf ∗ Pipeline.scopedRest spec1 c) ⊢ (Pipeline.ΦA spec1 c : sProp 𝕄) := by
  unfold Pipeline.ΦA
  iintro ⟨Hp, -, Hr⟩
  isplitl [Hr]; · iexact Hr
  iexact Hp
/-- and it gives them back. -/
theorem ofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The dequantisation region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered from every unscoped buffer at W3, left at W4. The generator register and the scoped
    rest go into the region's invariant, which follows the scratch block point by point, and come back out of it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c _).trans (hin1 (V3 m) c)
  hout c := by
    rw [Pipeline.ownSems0_none]
    exact (hout1 (V3 m) c).trans (ofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- Every weakly fair execution of the program from memory m with zero counters terminates, nothing faulting, with every
    unscoped buffer of every core at W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

variable (c : Dev nD)

/-! ## What each stretch leaves in the buffers the later ones read -/

/-- No host operation before the first region writes a reference outside its own results. -/
theorem W1_keep (b : Ref sig .tc) (h : b ∉ hostOps0_W) : W1 m c (Proc.devRef .tc b) = m ((c : Thread nD τ).loc b) :=
  StableHlo.after_of_writes_sub hostOps0 _ hostOps0_writes h

/-- An input array of the first region is left as entered. -/
theorem W2_in (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

theorem W3_keep (b : Ref sig .tc) (h : b ∉ hostOps1_W) : W3 m c (Proc.devRef .tc b) = W2 m c (Proc.devRef .tc b) :=
  StableHlo.after_of_writes_sub hostOps1 _ hostOps1_writes h

theorem W5_keep (b : Ref sig .tc) (h : b ∉ hostOps2_W) : W5 m c (Proc.devRef .tc b) = W4 m c (Proc.devRef .tc b) :=
  StableHlo.after_of_writes_sub hostOps2 _ hostOps2_writes h

/-- The seven argument arrays end as launched: no host stretch writes one, and a region reads one through an input
    window or not at all. -/
theorem W5_args :
    W5 m c (Proc.devRef .tc main_arg0) = m ((c : Thread nD τ).loc main_arg0)
    ∧ W5 m c (Proc.devRef .tc main_arg1) = m ((c : Thread nD τ).loc main_arg1)
    ∧ W5 m c (Proc.devRef .tc main_arg2) = m ((c : Thread nD τ).loc main_arg2)
    ∧ W5 m c (Proc.devRef .tc main_arg3) = m ((c : Thread nD τ).loc main_arg3)
    ∧ W5 m c (Proc.devRef .tc main_arg4) = m ((c : Thread nD τ).loc main_arg4)
    ∧ W5 m c (Proc.devRef .tc main_arg5) = m ((c : Thread nD τ).loc main_arg5)
    ∧ W5 m c (Proc.devRef .tc main_arg6) = m ((c : Thread nD τ).loc main_arg6) := by
  refine ⟨?_, ?_, ?_, ?_, ?_, ?_, ?_⟩
  · exact (W5_keep m c main_arg0 (by decide)).trans <| (W4_of_ne m c main_arg0 (by decide)).trans <|
      (W3_keep m c main_arg0 (by decide)).trans <| (W2_of_ne m c main_arg0 (by decide)).trans <| W1_keep m c main_arg0 (by decide)
  · exact (W5_keep m c main_arg1 (by decide)).trans <| (W4_of_ne m c main_arg1 (by decide)).trans <|
      (W3_keep m c main_arg1 (by decide)).trans <| (W2_of_ne m c main_arg1 (by decide)).trans <| W1_keep m c main_arg1 (by decide)
  · exact (W5_keep m c main_arg2 (by decide)).trans <| (W4_of_ne m c main_arg2 (by decide)).trans <|
      (W3_keep m c main_arg2 (by decide)).trans <| (W2_of_ne m c main_arg2 (by decide)).trans <| W1_keep m c main_arg2 (by decide)
  · exact (W5_keep m c main_arg3 (by decide)).trans <| (W4_of_ne m c main_arg3 (by decide)).trans <|
      (W3_keep m c main_arg3 (by decide)).trans <| (W2_in m c 1 rfl).trans <| W1_keep m c main_arg3 (by decide)
  · exact (W5_keep m c main_arg4 (by decide)).trans <| (W4_of_ne m c main_arg4 (by decide)).trans <|
      (W3_keep m c main_arg4 (by decide)).trans <| (W2_in m c 2 rfl).trans <| W1_keep m c main_arg4 (by decide)
  · exact (W5_keep m c main_arg5 (by decide)).trans <| (W4_of_ne m c main_arg5 (by decide)).trans <|
      (W3_keep m c main_arg5 (by decide)).trans <| (W2_in m c 3 rfl).trans <| W1_keep m c main_arg5 (by decide)
  · exact (W5_keep m c main_arg6 (by decide)).trans <| (W4_of_ne m c main_arg6 (by decide)).trans <|
      (W3_keep m c main_arg6 (by decide)).trans <| (W2_of_ne m c main_arg6 (by decide)).trans <| W1_keep m c main_arg6 (by decide)

/-- So every weakly fair execution terminates with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_args m c).1,
     (h c _ (mem_uc main_arg1 (by decide))).trans (W5_args m c).2.1,
     (h c _ (mem_uc main_arg2 (by decide))).trans (W5_args m c).2.2.1,
     (h c _ (mem_uc main_arg3 (by decide))).trans (W5_args m c).2.2.2.1,
     (h c _ (mem_uc main_arg4 (by decide))).trans (W5_args m c).2.2.2.2.1,
     (h c _ (mem_uc main_arg5 (by decide))).trans (W5_args m c).2.2.2.2.2.1,
     (h c _ (mem_uc main_arg6 (by decide))).trans (W5_args m c).2.2.2.2.2.2⟩) (run_all m ρ)

end Cert.KernelIdeal.Hand

end
-- ==== Proof.Spec.lean ====
/-
  The function both programs compute, entry by entry, on the extended reals.
  A weight entry: from the table entry a, the integer base b and the row's scale s and zero z,
      s · (min(15, max(0, (b + min(1, max(0, σ(a)·c₁ + c₂))) + z)) − z),
  σ the logistic function, c₁ and c₂ the two single-precision literals the programs share (read at their binary values).
  A result entry: the inner product over 4096 columns of a row of x with a row of the weight, plus the bias entry; the
  first program forms it as the sum of the products over the first 2048 columns plus the sum over the last 2048.
  Addition of extended reals is commutative and associative, so the two halves add up to the whole sum whatever the
  entries are (no finiteness is needed).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One entry of the quantised weight. -/
def wqElt (a : EReal) (b : BitVec 32) (s z : EReal) : EReal :=
  FloatOps.mulf (F := Ideal) (φ := .f32) s
    (FloatOps.subf (F := Ideal) (φ := .f32)
      (FloatOps.minimumf (F := Ideal) (φ := .f32) (Ideal.ofBits .f32 0x41700000#32)
        (FloatOps.maximumf (F := Ideal) (φ := .f32) (Ideal.ofBits .f32 0x00000000#32)
          (FloatOps.addf (F := Ideal) (φ := .f32)
            (FloatOps.addf (F := Ideal) (φ := .f32) (FloatOps.sitofp (F := Ideal) .f32 b)
              (FloatOps.minimumf (F := Ideal) (φ := .f32) (Ideal.ofBits .f32 0x3F800000#32)
                (FloatOps.maximumf (F := Ideal) (φ := .f32) (Ideal.ofBits .f32 0x00000000#32)
                  (FloatOps.addf (F := Ideal) (φ := .f32)
                    (FloatOps.mulf (F := Ideal) (φ := .f32) (FloatOps.logistic (F := Ideal) (φ := .f32) a) (Ideal.ofBits .f32 0x3F99999A#32))
                    (Ideal.ofBits .f32 0xBDCCCCCD#32)))))
            z)))
      z)

/-- Column k of the first half, and of the second half, among the 4096 columns. -/
def lo (k : Fin 2048) : Fin 4096 := ⟨k.val, by omega⟩
def hi (k : Fin 2048) : Fin 4096 := ⟨2048 + k.val, by omega⟩

/-- One result entry as the first program forms it: the two half inner products, then the bias. -/
def mmElt (x w : Fin 4096 → EReal) (b : EReal) : EReal :=
  ((∑ k : Fin 2048, x (lo k) * w (lo k)) + ∑ k : Fin 2048, x (hi k) * w (hi k)) + b

/-- The two halves are the whole inner product. -/
theorem mmElt_eq (x w : Fin 4096 → EReal) (b : EReal) : mmElt x w b = (∑ k : Fin 4096, x k * w k) + b := by
  unfold mmElt
  congr 1
  have h := Fin.sum_univ_add (M := EReal) (a := 2048) (b := 2048) (fun k : Fin (2048 + 2048) => x k * w k)
  rw [show (∑ k : Fin 4096, x k * w k) = ∑ k : Fin (2048 + 2048), x k * w k from rfl, h]
  rfl

/-- A result entry at (p, q, o): row (p, q) of x against row o of the weight built from the table α, plus bias o. -/
def out (x : (⟨3, ![4, 2048, 4096]⟩ : Shape).Idx → EReal) (α : (⟨2, ![4096, 4096]⟩ : Shape).Idx → EReal)
    (base : (⟨2, ![4096, 4096]⟩ : Shape).Idx → BitVec 32) (s z : (⟨2, ![4096, 1]⟩ : Shape).Idx → EReal)
    (bias : (⟨1, ![4096]⟩ : Shape).Idx → EReal) (i : (⟨3, ![4, 2048, 4096]⟩ : Shape).Idx) : EReal :=
  mmElt (fun k => x (ix3 (i 0) (i 1) k))
    (fun k => wqElt (α (ix2 (i 2) k)) (base (ix2 (i 2) k)) (s (ix2 (i 2) (0 : Fin 1))) (z (ix2 (i 2) (0 : Fin 1))))
    (bias (ix1 (i 2)))

end Cert.Spec

end
-- ==== Proof.IdealSide.DequantValue.lean ====
/-
  The value the dequantisation region leaves in the weight array, at the extended reals: its sixteen written-back blocks
  are rows 256·t … 256·t + 255 of ONE function of the region's entry contents, and they tile the 4096 × 4096 array, so the
  array ends holding that function: at (r, k) the weight entry of the table, base, scale and zero at row r (and column k).
-/
import proofs.«164747_j21878563405861_1_alg».proof.Proof.IdealSide.Dequant
import proofs.«164747_j21878563405861_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

private theorem hz : (![0, 0] : Fin 2 → Nat) = fun _ => 0 :=
  funext fun a => by match a with | ⟨0, _⟩ => rfl | ⟨1, _⟩ => rfl

/-- A column of 256 rows spread over 4096 columns, read at (p, q), is the column at row p. -/
private theorem spread_apply {α : Type} (x : S256x1.Idx → α) (p : Fin 256) (q : Fin 4096) :
    broadcastTo S256x4096 x broadcasts_S256x1_S256x4096 (ix2 p q) = x (ix2 p (0 : Fin 1)) :=
  broadcastTo_apply x _ (ix2 p q) (ix2 p (0 : Fin 1)) fun a => by
    match a with
    | ⟨0, _⟩ => rfl
    | ⟨1, _⟩ => rfl

/-- The body's stored value at (p, q) of the block is the weight entry of the four loaded blocks' entries there:
    every operation is entry by entry, the two literals and the two clamps' bounds are constants, and the column
    operands are read at row p. -/
private theorem pay_apply (x0 : Vec Ideal S256x4096 .f32) (x1 : Vec Ideal S256x4096 .i32) (x2 x3 : Vec Ideal S256x1 .f32)
    (p : Fin 256) (q : Fin 4096) :
    (k0_pay1 x0 x1 x2 x3 : S256x4096.Idx → EReal) (ix2 p q)
      = Cert.Spec.wqElt (x0 (ix2 p q)) (x1 (ix2 p q)) (x2 (ix2 p (0 : Fin 1))) (x3 (ix2 p (0 : Fin 1))) := by
  unfold k0_pay1 Cert.Spec.wqElt
  simp only [shapeCast_self]
  simp only [truncf, mulf, subf, addf, minimumf, maximumf, logistic, sitofp, broadcast, spread_apply]
  rfl

/-- The index maps over the grid: every window's block at point t is block row t, block column 0. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

private theorem N0 : cfg0.N = 16 := by decide

/-- The table's block at point t is rows 256·t … of the table. -/
private theorem tab_apply (t : Fin cfg0.N) (p : Fin 256) (q : Fin 4096) (i : S4096x4096.Idx)
    (h0 : (i 0).val = 256 * t.val + p.val) (h1 : (i 1).val = q.val) :
    (iblk0 V c 0 t : Vec Ideal S256x4096 .f32) (ix2 p q) = (V c main_v7 : S4096x4096.Idx → EReal) i := by
  obtain ⟨e0, e1, -⟩ := idx_facts t
  unfold iblk0
  rw [View.read_apply]
  show V c main_v7 _ = V c main_v7 _
  congr 1
  funext a
  apply Fin.ext
  match a with
  | ⟨0, _⟩ => show win0_0.index t (0 : Fin 2) * 256 + 1 * p.val = (i 0).val; rw [e0, h0]; omega
  | ⟨1, _⟩ => show win0_0.index t (1 : Fin 2) * 4096 + 1 * q.val = (i 1).val; rw [e1, h1]; omega

/-- The base's block at point t is rows 256·t … of the base. -/
private theorem base_apply (t : Fin cfg0.N) (p : Fin 256) (q : Fin 4096) (i : S4096x4096.Idx)
    (h0 : (i 0).val = 256 * t.val + p.val) (h1 : (i 1).val = q.val) :
    (iblk0 V c 1 t : Vec Ideal S256x4096 .i32) (ix2 p q) = (V c main_arg3 : S4096x4096.Idx → BitVec 32) i := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 256 + 1 * p.val = (i 0).val; rw [e0, h0]; omega
  | ⟨1, _⟩ => show win0_1.index t (1 : Fin 2) * 4096 + 1 * q.val = (i 1).val; rw [e1, h1]; omega

/-- The scale's block at point t is rows 256·t … of the scale column. -/
private theorem scale_apply (t : Fin cfg0.N) (p : Fin 256) (r : Fin 4096) (h0 : r.val = 256 * t.val + p.val) :
    (iblk0 V c 2 t : Vec Ideal S256x1 .f32) (ix2 p (0 : Fin 1)) = (V c main_arg4 : S4096x1.Idx → EReal) (ix2 r (0 : Fin 1)) := by
  obtain ⟨-, -, -, -, e0, e1, -⟩ := idx_facts t
  unfold iblk0
  rw [View.read_apply]
  show V c main_arg4 _ = V c main_arg4 _
  congr 1
  funext a
  apply Fin.ext
  match a with
  | ⟨0, _⟩ => show win0_2.index t (0 : Fin 2) * 256 + 1 * p.val = r.val; rw [e0, h0]; omega
  | ⟨1, _⟩ => show win0_2.index t (1 : Fin 2) * 1 + 1 * 0 = 0; rw [e1]

/-- The zero's block at point t is rows 256·t … of the zero column. -/
private theorem zero_apply (t : Fin cfg0.N) (p : Fin 256) (r : Fin 4096) (h0 : r.val = 256 * t.val + p.val) :
    (iblk0 V c 3 t : Vec Ideal S256x1 .f32) (ix2 p (0 : Fin 1)) = (V c main_arg5 : S4096x1.Idx → EReal) (ix2 r (0 : Fin 1)) := by
  obtain ⟨-, -, -, -, -, -, e0, e1, -⟩ := idx_facts t
  unfold iblk0
  rw [View.read_apply]
  show V c main_arg5 _ = V c main_arg5 _
  congr 1
  funext a
  apply Fin.ext
  match a with
  | ⟨0, _⟩ => show win0_3.index t (0 : Fin 2) * 256 + 1 * p.val = r.val; rw [e0, h0]; omega
  | ⟨1, _⟩ => show win0_3.index t (1 : Fin 2) * 1 + 1 * 0 = 0; rw [e1]

/-- The weight array as one function of the entry contents. -/
private def wq : S4096x4096.Idx → EReal := fun i =>
  Cert.Spec.wqElt ((V c main_v7 : S4096x4096.Idx → EReal) i) ((V c main_arg3 : S4096x4096.Idx → BitVec 32) i)
    ((V c main_arg4 : S4096x1.Idx → EReal) (ix2 (i 0) (0 : Fin 1))) ((V c main_arg5 : S4096x1.Idx → EReal) (ix2 (i 0) (0 : Fin 1)))

/-- Point t writes back rows 256·t … 256·t + 255 of that function. -/
private theorem flushed_eq (t : Fin cfg0.N) :
    (dat0 V c).flushed 4 t = ((cfg0.win 4).blk t).view.read (Elt Ideal) (wq V c) := by
  show (cfg0.win 4).cut (grid0.coords t) ((dat0 V c).after 4 t) = _
  rw [after0_4]
  unfold deqBlk
  rw [View.canon_unit_zero hz]
  simp only [View.ld_unit_zero (S := S256x4096) hz, View.ld_unit_zero (S := S256x1) hz]
  obtain ⟨-, -, -, -, -, -, -, -, e0, e1⟩ := idx_facts t
  funext y
  obtain ⟨p, q, rfl⟩ : ∃ (p : Fin 256) (q : Fin 4096), y = ix2 p q := ⟨y 0, y 1, eq_ix2 y⟩
  rw [View.read_apply]
  have hi0 : ((((cfg0.win 4).blk t).view.emb (ix2 p q) : S4096x4096.Idx) 0).val = 256 * t.val + p.val := by
    show win0_4.index t (0 : Fin 2) * 256 + 1 * p.val = _; rw [e0]; omega
  have hi1 : ((((cfg0.win 4).blk t).view.emb (ix2 p q) : S4096x4096.Idx) 1).val = q.val := by
    show win0_4.index t (1 : Fin 2) * 4096 + 1 * q.val = _; rw [e1]; omega
  show (k0_pay1 (iblk0 V c 0 t) (iblk0 V c 1 t) (iblk0 V c 2 t) (iblk0 V c 3 t) : S256x4096.Idx → EReal) (ix2 p q) = wq V c _
  rw [pay_apply, tab_apply V c t p q _ hi0 hi1, base_apply V c t p q _ hi0 hi1, scale_apply V c t p _ hi0, zero_apply V c t p _ hi0]
  rfl

/-- Row r lies in the block of point r / 256. -/
private theorem covered (i : S4096x4096.Idx) :
    ∃ t : Fin cfg0.N, (cfg0.win 4).flush t = true ∧ i ∈ ((cfg0.win 4).blk t).view.set := by
  have h0 : (i 0).val < 4096 := (i 0).isLt
  have h1 : (i 1).val < 4096 := (i 1).isLt
  obtain ⟨t, ht⟩ : ∃ t : Fin cfg0.N, t.val = (i 0).val / 256 := ⟨⟨(i 0).val / 256, by rw [N0]; omega⟩, rfl⟩
  refine ⟨t, flush0_4 t, ?_⟩
  obtain ⟨-, -, -, -, -, -, -, -, e0, e1⟩ := idx_facts t
  show i ∈ ((View.whole main_v8).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 4096 ≤ (i 1).val ∧ (i 1).val < win0_4.index t (1 : Fin 2) * 4096 + 4096
    rw [e1]; omega

/-- After the region the weight array holds, entry by entry, the weight entry of the entry contents. -/
theorem deq_arr :
    ((dat0 V c).arrAt 4 cfg0.N : S4096x4096.Idx → EReal)
      = fun i => Cert.Spec.wqElt ((V c main_v7 : S4096x4096.Idx → EReal) i) ((V c main_arg3 : S4096x4096.Idx → BitVec 32) i)
          ((V c main_arg4 : S4096x1.Idx → EReal) (ix2 (i 0) (0 : Fin 1))) ((V c main_arg5 : S4096x1.Idx → EReal) (ix2 (i 0) (0 : Fin 1))) :=
  (dat0 V c).arrAt_eq_of_cover 4 (wq V c) (fun t _ => flushed_eq V c t) covered

end Cert.KernelIdeal.Hand

end
-- ==== Proof.IdealSide.MatmulValue.lean ====
/-
  The value the product region leaves in its result array, at the extended reals. The scratch block after the second of
  a pair of points (k = 0, 1) holds, at (a, b), the products of row a of the x block with row b of the weight block summed
  over the first 2048 columns (onto the zero block) plus the same over the last 2048; the output block is that plus the
  bias entry b. The sixty-four written-back blocks (the odd points) tile the 8192 × 4096 array, so the array ends holding,
  at (r, o), the two half inner products of row r of x and row o of the weight, plus bias o.
-/
import proofs.«164747_j21878563405861_1_alg».proof.Proof.IdealSide.Matmul
import proofs.«164747_j21878563405861_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-- The zero block at an entry. -/
private theorem zeroBlock_apply (p : Fin 512) (q : Fin 1024) : (k1_pay1 (F := Ideal)) (ix2 p q) = 0 := by
  unfold k1_pay1
  rw [shapeCast_self]
  show Ideal.ofBits .f32 0x00000000#32 = 0
  exact Ideal.ofBits_zero_f32

/-- The product's operand indices at an entry (a, b) and column k: the x block at (a, k), the weight block at (b, k), axis by axis. -/
private theorem lhs_mm_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
private theorem lhs_mm_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
private theorem rhs_mm_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
private theorem rhs_mm_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The product of an x block with a weight block, into the zero accumulator, at an entry. -/
private theorem mm_apply (x : FVec Ideal S512x2048 .bf16) (w : FVec Ideal S1024x2048 .bf16) (p : Fin 512) (q : Fin 1024) :
    FloatOps.matmul dot_S512x2048_S1024x2048_S512x1024_1_1_0_0_n_n none x w (constant (F := Ideal) S512x1024 .f32 0x00000000#32) (ix2 p q)
      = ∑ k : Fin 2048, x (ix2 p k) * w (ix2 q k) := by
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun a => Fin.ext (by
    match a with
    | ⟨0, _⟩ => exact lhs_mm_0 _ _
    | ⟨1, _⟩ => exact (lhs_mm_1 _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]

/-- One step of the carried block at an entry: what it held plus the half inner product of the two rows. -/
private theorem step_apply (x : Vec Ideal S512x2048 .f32) (w : Vec Ideal S1024x2048 .bf16) (acc : Vec Ideal S512x1024 .f32)
    (p : Fin 512) (q : Fin 1024) :
    k1_pay2 x w acc (ix2 p q) = acc (ix2 p q) + ∑ k : Fin 2048, x (ix2 p k) * w (ix2 q k) := by
  unfold k1_pay2
  simp only [shapeCast_self]
  exact congrArg (acc (ix2 p q) + ·) (mm_apply (truncf .bf16 x bitsLt_bf16_f32) w p q)

/-- The stored block at an entry: the carried block plus the bias entry of its column. -/
private theorem withBias_apply (acc : Vec Ideal S512x1024 .f32) (b : Vec Ideal S1x1024 .f32) (p : Fin 512) (q : Fin 1024) :
    k1_pay3 acc b (ix2 p q) = acc (ix2 p q) + b (ix2 (0 : Fin 1) q) := by
  unfold k1_pay3
  simp only [shapeCast_self]
  exact congrArg (acc (ix2 p q) + ·) (broadcastTo_1b_ab_apply b broadcasts_S1x1024_S512x1024 p q)

/-- The block positions over the grid: point t = ((i·4) + j)·2 + k holds x block (i, k), weight block (j, k), bias block
    (0, j) and result block (i, j). -/
private theorem blockPos : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = 0 ∧ win1_2.index t (1 : Fin 2) = t.val / 2 % 4
    ∧ win1_3.index t (0 : Fin 2) = t.val / 8 ∧ win1_3.index t (1 : Fin 2) = t.val / 2 % 4 :=
  (by decide +kernel : ∀ t : Fin grid1.N, _)

/-- An entry of the x block at a point is the entry of x at the block's position. -/
private theorem xBlock_apply (t : Fin cfg1.N) (p : Fin 512) (k : Fin 2048) (r : Fin 8192) (col : Fin 4096)
    (hr : r.val = win1_0.index t (0 : Fin 2) * 512 + p.val) (hc : col.val = win1_0.index t (1 : Fin 2) * 2048 + k.val) :
    (iblk1 V c 0 t : Vec Ideal S512x2048 .f32) (ix2 p k) = (V c main_v9 : S8192x4096.Idx → EReal) (ix2 r col) := by
  unfold iblk1
  rw [View.read_apply]
  show V c main_v9 _ = V c main_v9 _
  congr 1
  funext a
  apply Fin.ext
  match a with
  | ⟨0, _⟩ => show win1_0.index t (0 : Fin 2) * 512 + 1 * p.val = r.val; omega
  | ⟨1, _⟩ => show win1_0.index t (1 : Fin 2) * 2048 + 1 * k.val = col.val; omega

/-- An entry of the weight block at a point is the entry of the weight at the block's position. -/
private theorem wBlock_apply (t : Fin cfg1.N) (q : Fin 1024) (k : Fin 2048) (o : Fin 4096) (col : Fin 4096)
    (ho : o.val = win1_1.index t (0 : Fin 2) * 1024 + q.val) (hc : col.val = win1_1.index t (1 : Fin 2) * 2048 + k.val) :
    (iblk1 V c 1 t : Vec Ideal S1024x2048 .bf16) (ix2 q k) = (V c main_v8 : S4096x4096.Idx → EReal) (ix2 o col) := by
  unfold iblk1
  rw [View.read_apply]
  show V c main_v8 _ = V c main_v8 _
  congr 1
  funext a
  apply Fin.ext
  match a with
  | ⟨0, _⟩ => show win1_1.index t (0 : Fin 2) * 1024 + 1 * q.val = o.val; omega
  | ⟨1, _⟩ => show win1_1.index t (1 : Fin 2) * 2048 + 1 * k.val = col.val; omega

/-- An entry of the bias block at a point is the entry of the bias at the block's position. -/
private theorem bBlock_apply (t : Fin cfg1.N) (q : Fin 1024) (o : Fin 4096)
    (h0 : win1_2.index t (0 : Fin 2) = 0) (ho : o.val = win1_2.index t (1 : Fin 2) * 1024 + q.val) :
    (iblk1 V c 2 t : Vec Ideal S1x1024 .f32) (ix2 (0 : Fin 1) q) = (V c main_v10 : S1x4096.Idx → EReal) (ix2 (0 : Fin 1) o) := by
  unfold iblk1
  rw [View.read_apply]
  show V c main_v10 _ = V c main_v10 _
  congr 1
  funext a
  apply Fin.ext
  match a with
  | ⟨0, _⟩ => show win1_2.index t (0 : Fin 2) * 1 + 1 * 0 = 0; omega
  | ⟨1, _⟩ => show win1_2.index t (1 : Fin 2) * 1024 + 1 * q.val = o.val; omega

/-- The scratch after an odd point: both partial products onto the zero block. -/
private theorem accAt_pair (t : Fin cfg1.N) (h : t.val % 2 = 1) (h' : t.val - 1 < cfg1.N) :
    accAt V c t.val t.isLt = k1_pay2 (iblk1 V c 0 t) (iblk1 V c 1 t)
      (k1_pay2 (iblk1 V c 0 ⟨t.val - 1, h'⟩) (iblk1 V c 1 ⟨t.val - 1, h'⟩) (k1_pay1 (F := Ideal))) :=
  (accAt_odd V c t h).trans (congrArg (k1_pay2 (iblk1 V c 0 t) (iblk1 V c 1 t))
    (accAt_even V c ⟨t.val - 1, h'⟩ (by show (t.val - 1) % 2 = 0; omega)))

/-- The stored block over any blocks, at an entry: the two half inner products onto zero, plus the bias entry. -/
private theorem outBlock_apply (x0 x1 : Vec Ideal S512x2048 .f32) (w0 w1 : Vec Ideal S1024x2048 .bf16) (b : Vec Ideal S1x1024 .f32)
    (p : Fin 512) (q : Fin 1024) :
    k1_pay3 (k1_pay2 x1 w1 (k1_pay2 x0 w0 (k1_pay1 (F := Ideal)))) b (ix2 p q)
      = ((∑ k : Fin 2048, x0 (ix2 p k) * w0 (ix2 q k)) + ∑ k : Fin 2048, x1 (ix2 p k) * w1 (ix2 q k)) + b (ix2 (0 : Fin 1) q) := by
  rw [withBias_apply, step_apply, step_apply, zeroBlock_apply, zero_add]

/-- The function the result array ends holding. -/
private abbrev mmArr : S8192x4096.Idx → EReal := fun i =>
  Cert.Spec.mmElt (fun k => (V c main_v9 : S8192x4096.Idx → EReal) (ix2 (i 0) k))
    (fun k => (V c main_v8 : S4096x4096.Idx → EReal) (ix2 (i 1) k))
    ((V c main_v10 : S1x4096.Idx → EReal) (ix2 (0 : Fin 1) (i 1)))

/-- The block stored at an odd point, at an entry: row r of x against row o of the weight, plus bias o, where (r, o) is
    the entry's place in the array. -/
private theorem outBlock_entry (t : Fin cfg1.N) (h : t.val % 2 = 1) (p : Fin 512) (q : Fin 1024) (r : Fin 8192) (o : Fin 4096)
    (hr : r.val = win1_3.index t (0 : Fin 2) * 512 + p.val) (ho : o.val = win1_3.index t (1 : Fin 2) * 1024 + q.val) :
    (outAt V c t : Vec Ideal S512x1024 .f32) (ix2 p q)
      = Cert.Spec.mmElt (fun k => (V c main_v9 : S8192x4096.Idx → EReal) (ix2 r k))
          (fun k => (V c main_v8 : S4096x4096.Idx → EReal) (ix2 o k))
          ((V c main_v10 : S1x4096.Idx → EReal) (ix2 (0 : Fin 1) o)) := by
  have hN : cfg1.N = 128 := N_1
  have h' : t.val - 1 < cfg1.N := by omega
  obtain ⟨e00, e01, e10, e11, e20, e21, e30, e31⟩ := blockPos t
  obtain ⟨f00, f01, f10, f11, -, -, -, -⟩ := blockPos ⟨t.val - 1, h'⟩
  have g00 : win1_0.index ⟨t.val - 1, h'⟩ (0 : Fin 2) = (t.val - 1) / 8 := f00
  have g01 : win1_0.index ⟨t.val - 1, h'⟩ (1 : Fin 2) = (t.val - 1) % 2 := f01
  have g10 : win1_1.index ⟨t.val - 1, h'⟩ (0 : Fin 2) = (t.val - 1) / 2 % 4 := f10
  have g11 : win1_1.index ⟨t.val - 1, h'⟩ (1 : Fin 2) = (t.val - 1) % 2 := f11
  unfold outAt
  rw [accAt_pair V c t h h']
  refine (outBlock_apply _ _ _ _ _ p q).trans ?_
  unfold Cert.Spec.mmElt
  congr 1
  · congr 1
    · refine Finset.sum_congr rfl fun k _ => ?_
      exact congrArg₂ (· * ·)
        (xBlock_apply V c ⟨t.val - 1, h'⟩ p k r (Cert.Spec.lo k) (by omega) (by show k.val = _; omega))
        (wBlock_apply V c ⟨t.val - 1, h'⟩ q k o (Cert.Spec.lo k) (by omega) (by show k.val = _; omega))
    · refine Finset.sum_congr rfl fun k _ => ?_
      exact congrArg₂ (· * ·)
        (xBlock_apply V c t p k r (Cert.Spec.hi k) (by omega) (by show 2048 + k.val = _; omega))
        (wBlock_apply V c t q k o (Cert.Spec.hi k) (by omega) (by show 2048 + k.val = _; omega))
  · exact bBlock_apply V c t q o e20 (by omega)

/-- The same at any index of the block. -/
private theorem outBlock_entry_idx (t : Fin cfg1.N) (h : t.val % 2 = 1) (j : S512x1024.Idx) (r : Fin 8192) (o : Fin 4096)
    (hr : r.val = win1_3.index t (0 : Fin 2) * 512 + (j 0).val) (ho : o.val = win1_3.index t (1 : Fin 2) * 1024 + (j 1).val) :
    (outAt V c t : Vec Ideal S512x1024 .f32) j
      = Cert.Spec.mmElt (fun k => (V c main_v9 : S8192x4096.Idx → EReal) (ix2 r k))
          (fun k => (V c main_v8 : S4096x4096.Idx → EReal) (ix2 o k))
          ((V c main_v10 : S1x4096.Idx → EReal) (ix2 (0 : Fin 1) o)) := by
  obtain ⟨p, q, rfl⟩ : ∃ (p : Fin 512) (q : Fin 1024), j = ix2 p q := ⟨j 0, j 1, eq_ix2 j⟩
  exact outBlock_entry V c t h p q r o hr ho

/-- What an odd point writes back is its block of that function. -/
private theorem flushed_eq (t : Fin cfg1.N) (hf : (cfg1.win 3).flush t = true) :
    (dat1 V c).flushed 3 t = ((cfg1.win 3).blk t).view.read (Elt Ideal) (mmArr V c) := by
  have h : t.val % 2 = 1 := (flush1_3 t).mp hf
  show (cfg1.win 3).cut (grid1.coords t) ((dat1 V c).after 3 t) = _
  rw [after1_3]
  funext y
  rw [View.read_apply]
  show (outAt V c t : Vec Ideal S512x1024 .f32) ((cfg1.win 3).xinj (grid1.coords t) y) = mmArr V c (((cfg1.win 3).blk t).view.emb y)
  refine outBlock_entry_idx V c t h _ _ _ ?_ ?_
  · show win1_3.index t (0 : Fin 2) * 512 + 1 * (y 0).val = win1_3.index t (0 : Fin 2) * 512 + (y 0).val; omega
  · show win1_3.index t (1 : Fin 2) * 1024 + 1 * (y 1).val = win1_3.index t (1 : Fin 2) * 1024 + (y 1).val; omega

/-- An index of the array is in point t's result block iff each coordinate is in the block's range on its axis. -/
private theorem mem_outBlk (t : Fin cfg1.N) (i : S8192x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v11).slice (win1_3.rect t)).set ↔ _
  rw [View.set_slice_whole, Rect.mem_set_unit]
  exact Iff.rfl

/-- Every entry (r, o) lies in the block written back at the odd point of block row r / 512 and block column o / 1024. -/
private theorem covered (i : S8192x4096.Idx) :
    ∃ t : Fin cfg1.N, (cfg1.win 3).flush t = true ∧ i ∈ ((cfg1.win 3).blk t).view.set := by
  have hN : cfg1.N = 128 := N_1
  have hi0 : (i 0).val < 8192 := (i 0).isLt
  have hi1 : (i 1).val < 4096 := (i 1).isLt
  obtain ⟨t, ht⟩ : ∃ t : Fin cfg1.N, t.val = (((i 0).val / 512) * 4 + (i 1).val / 1024) * 2 + 1 := ⟨⟨_, by omega⟩, rfl⟩
  obtain ⟨-, -, -, -, -, -, e30, e31⟩ := blockPos t
  refine ⟨t, (flush1_3 t).mpr (by omega), ?_⟩
  rw [mem_outBlk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- After the region the result array holds, entry by entry, the two half inner products plus the bias. -/
theorem mm_arr :
    ((dat1 V c).arrAt 3 cfg1.N : S8192x4096.Idx → EReal)
      = fun i => Cert.Spec.mmElt (fun k => (V c main_v9 : S8192x4096.Idx → EReal) (ix2 (i 0) k))
          (fun k => (V c main_v8 : S4096x4096.Idx → EReal) (ix2 (i 1) k))
          ((V c main_v10 : S1x4096.Idx → EReal) (ix2 (0 : Fin 1) (i 1))) :=
  (dat1 V c).arrAt_eq_of_cover 3 (mmArr V c) (fun t hf => flushed_eq V c t hf) covered

end Cert.KernelIdeal.Hand

end
-- ==== Proof.IdealSide.KernelValue.lean ====
/-
  The first program's result, at the extended reals, as one function of its arguments: the contents followed through the
  five stretches. The final re-laying reads the product region's array at row 2048·p + q; that array is the half inner
  products of the re-laid x (row 2048·p + q is row (p, q) of x) with the weight array the dequantisation region left,
  whose entries are the weight entries of the gathered table and the arguments; the bias row is the bias.
-/
import proofs.«164747_j21878563405861_1_alg».proof.Proof.IdealSide.Run
import proofs.«164747_j21878563405861_1_alg».proof.Proof.IdealSide.DequantValue
import proofs.«164747_j21878563405861_1_alg».proof.Proof.IdealSide.MatmulValue
import proofs.«164747_j21878563405861_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The gathered table, re-laid as 4096 × 4096: what the host operations before the first region leave (kept as one
    term: both programs compute it by the same operations). -/
def alphaOf (x1 : S4096x8.Idx → EReal) (x2 : S2097152.Idx → BitVec 32) : S4096x4096.Idx → EReal :=
  shapeCast S4096x4096 (Host.gather gather_S4096x8_S2097152x1_S2097152x8_1_0_n_n_0_1_18 x1
    (broadcastInDim S2097152x1 ![0] bcast_S2097152_S2097152x1_0
      (select (cmpi .slt x2 (broadcastInDim S2097152 ![] bcast_S_S2097152 (constantI S_ 32 0#32)))
        (addi x2 (broadcastInDim S2097152 ![] bcast_S_S2097152 (constantI S_ 32 4096#32))) x2))) shapeCasts_S2097152x8_S4096x4096

/-! ## What the host stretches leave in the buffers the regions read -/

/-- The first region's entry table is the gathered, re-laid table. -/
theorem V1_table : (V1 m c main_v7 : S4096x4096.Idx → EReal)
    = alphaOf (m ((c : Thread nD τ).loc main_arg1)) (m ((c : Thread nD τ).loc main_arg2)) := by
  show StableHlo.after hostOps0 (fun b => m (c, b)) (Proc.devRef .tc main_v7) = _
  unfold alphaOf
  after_results
  rfl

/-- The weight array the second region reads is what the first region left: entry by entry the weight entry. -/
theorem V3_weight : (V3 m c main_v8 : S4096x4096.Idx → EReal)
    = fun i => Cert.Spec.wqElt (alphaOf (m ((c : Thread nD τ).loc main_arg1)) (m ((c : Thread nD τ).loc main_arg2)) i)
        ((m ((c : Thread nD τ).loc main_arg3) : S4096x4096.Idx → BitVec 32) i)
        ((m ((c : Thread nD τ).loc main_arg4) : S4096x1.Idx → EReal) (ix2 (i 0) (0 : Fin 1)))
        ((m ((c : Thread nD τ).loc main_arg5) : S4096x1.Idx → EReal) (ix2 (i 0) (0 : Fin 1))) := by
  have h8 : V3 m c main_v8 = (dat0 (V1 m) c).arrAt 4 cfg0.N := (W3_keep m c main_v8 (by decide)).trans (W2_arr m c 4)
  rw [h8, deq_arr (V1 m) c, V1_table m c]
  rw [show V1 m c main_arg3 = m ((c : Thread nD τ).loc main_arg3) from W1_keep m c main_arg3 (by decide),
    show V1 m c main_arg4 = m ((c : Thread nD τ).loc main_arg4) from W1_keep m c main_arg4 (by decide),
    show V1 m c main_arg5 = m ((c : Thread nD τ).loc main_arg5) from W1_keep m c main_arg5 (by decide)]
  rfl

/-- The second region's x operand is x re-laid: row 2048·p + q is row (p, q). -/
theorem V3_x (p : Fin 4) (q : Fin 2048) (k : Fin 4096) (r : Fin 8192) (hr : r.val = p.val * 2048 + q.val) :
    (V3 m c main_v9 : S8192x4096.Idx → EReal) (ix2 r k) = (m ((c : Thread nD τ).loc main_arg0) : S4x2048x4096.Idx → EReal) (ix3 p q k) := by
  have e : (V3 m c main_v9 : S8192x4096.Idx → EReal)
      = shapeCast S8192x4096 (W2 m c (Proc.devRef .tc main_arg0) : S4x2048x4096.Idx → EReal) shapeCasts_S4x2048x4096_S8192x4096 := by
    show StableHlo.after hostOps1 (W2 m c) (Proc.devRef .tc main_v9) = _
    after_results
    rfl
  rw [e, show W2 m c (Proc.devRef .tc main_arg0) = m ((c : Thread nD τ).loc main_arg0) from
    (W2_of_ne m c main_arg0 (by decide)).trans (W1_keep m c main_arg0 (by decide))]
  exact shapeCast_apply (s := S4x2048x4096) (t := S8192x4096) _ shapeCasts_S4x2048x4096_S8192x4096 (ix2 r k) (ix3 p q k) (by
    show (Shape.rowMajor S4x2048x4096 (ix3 p q k)).val = (Shape.rowMajor S8192x4096 (ix2 r k)).val
    rw [Shape.rowMajor_val_three, Shape.rowMajor_val_two]
    show (p.val * 2048 + q.val) * 4096 + k.val = r.val * 4096 + k.val
    rw [hr])

/-- Its bias operand is the bias as a row. -/
theorem V3_bias (o : Fin 4096) :
    (V3 m c main_v10 : S1x4096.Idx → EReal) (ix2 (0 : Fin 1) o) = (m ((c : Thread nD τ).loc main_arg6) : S4096.Idx → EReal) (ix1 o) := by
  have e : (V3 m c main_v10 : S1x4096.Idx → EReal)
      = shapeCast S1x4096 (W2 m c (Proc.devRef .tc main_arg6) : S4096.Idx → EReal) shapeCasts_S4096_S1x4096 := by
    show StableHlo.after hostOps1 (W2 m c) (Proc.devRef .tc main_v10) = _
    after_results
    rfl
  rw [e, show W2 m c (Proc.devRef .tc main_arg6) = m ((c : Thread nD τ).loc main_arg6) from
    (W2_of_ne m c main_arg6 (by decide)).trans (W1_keep m c main_arg6 (by decide))]
  exact shapeCast_a_1a_apply _ _ _ _

/-- The program's result array after the run, entry by entry. -/
theorem kernel_out :
    (W5 m c (Proc.devRef .tc main_v12) : S4x2048x4096.Idx → EReal)
      = Cert.Spec.out (m ((c : Thread nD τ).loc main_arg0)) (alphaOf (m ((c : Thread nD τ).loc main_arg1)) (m ((c : Thread nD τ).loc main_arg2)))
          (m ((c : Thread nD τ).loc main_arg3)) (m ((c : Thread nD τ).loc main_arg4)) (m ((c : Thread nD τ).loc main_arg5))
          (m ((c : Thread nD τ).loc main_arg6)) := by
  funext i
  obtain ⟨p, q, o, rfl⟩ : ∃ (p : Fin 4) (q : Fin 2048) (o : Fin 4096), i = ix3 p q o := ⟨i 0, i 1, i 2, eq_ix3 i⟩
  have e5 : (W5 m c (Proc.devRef .tc main_v12) : S4x2048x4096.Idx → EReal)
      = shapeCast S4x2048x4096 (W4 m c (Proc.devRef .tc main_v11) : S8192x4096.Idx → EReal) shapeCasts_S8192x4096_S4x2048x4096 := by
    show StableHlo.after hostOps2 (W4 m c) (Proc.devRef .tc main_v12) = _
    after_results
    rfl
  have hr : p.val * 2048 + q.val < 8192 := by have := p.isLt; have := q.isLt; omega
  rw [e5, shapeCast_apply (s := S8192x4096) (t := S4x2048x4096) _ shapeCasts_S8192x4096_S4x2048x4096 (ix3 p q o)
    (ix2 (⟨p.val * 2048 + q.val, hr⟩ : Fin 8192) o) (by
    show (Shape.rowMajor S8192x4096 (ix2 (⟨p.val * 2048 + q.val, hr⟩ : Fin 8192) o)).val = (Shape.rowMajor S4x2048x4096 (ix3 p q o)).val
    rw [Shape.rowMajor_val_three, Shape.rowMajor_val_two]
    show (p.val * 2048 + q.val) * 4096 + o.val = (p.val * 2048 + q.val) * 4096 + o.val
    rfl)]
  rw [show W4 m c (Proc.devRef .tc main_v11) = (dat1 (V3 m) c).arrAt 3 cfg1.N from W4_arr m c 3, mm_arr (V3 m) c]
  have hx : (fun k : Fin 4096 => (V3 m c main_v9 : S8192x4096.Idx → EReal) (ix2 (⟨p.val * 2048 + q.val, hr⟩ : Fin 8192) k))
      = fun k => (m ((c : Thread nD τ).loc main_arg0) : S4x2048x4096.Idx → EReal) (ix3 p q k) :=
    funext fun k => V3_x m c p q k _ rfl
  have hw : (fun k : Fin 4096 => (V3 m c main_v8 : S4096x4096.Idx → EReal) (ix2 o k))
      = fun k => Cert.Spec.wqElt (alphaOf (m ((c : Thread nD τ).loc main_arg1)) (m ((c : Thread nD τ).loc main_arg2)) (ix2 o k))
        ((m ((c : Thread nD τ).loc main_arg3) : S4096x4096.Idx → BitVec 32) (ix2 o k))
        ((m ((c : Thread nD τ).loc main_arg4) : S4096x1.Idx → EReal) (ix2 o (0 : Fin 1)))
        ((m ((c : Thread nD τ).loc main_arg5) : S4096x1.Idx → EReal) (ix2 o (0 : Fin 1))) :=
    funext fun k => congrFun (V3_weight m c) (ix2 o k)
  show Cert.Spec.mmElt (fun k : Fin 4096 => (V3 m c main_v9 : S8192x4096.Idx → EReal) (ix2 (⟨p.val * 2048 + q.val, hr⟩ : Fin 8192) k))
      (fun k : Fin 4096 => (V3 m c main_v8 : S4096x4096.Idx → EReal) (ix2 o k))
      ((V3 m c main_v10 : S1x4096.Idx → EReal) (ix2 (0 : Fin 1) o)) = _
  rw [hx, hw, V3_bias m c o]
  rfl

end Cert.KernelIdeal.Hand

end
-- ==== Proof.RefValue.lean ====
/-
  The second program (plain array operations, no kernel) at the extended reals, entry by entry: its result at (p, q, o)
  is the inner product over all 4096 columns of row (p, q) of x with row o of its weight, plus bias o; its weight at
  (o, k) is the weight entry of the gathered table, the base, and row o's scale and zero, where its logistic function is
  spelt 1 / (1 + e^(−a)): on the extended reals that IS the logistic function. The whole inner product is the sum of its
  two halves, so the result is the same function the first program computes.
-/
import proofs.«164747_j21878563405861_1_alg».proof.Proof.Gen.ReferenceIdeal.Run
import proofs.«164747_j21878563405861_1_alg».proof.Proof.Gen.ReferenceIdeal.Read
import proofs.«164747_j21878563405861_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The single-precision word of one is the number 1. -/
private theorem one_word : FloatOps.ofBits (F := Ideal) .f32 0x3F800000#32 = (1 : Ideal .f32) :=
  IdealRules.sign_bit.ideal_onePat .f32

/-- 1 / (1 + e^(−a)), with the word of one, is the logistic function of a on the extended reals. -/
private theorem logistic_spelt (a : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf a)))
      = FloatOps.logistic a := by
  rw [one_word]; rfl

/-- The inner product at (p, q, o), column k, reads the weight at (o, k), -/
private theorem ridx_eq (i : S4x2048x4096.Idx) (k : Fin 4096) : ridx_main_v28 i k = ix2 (i 2) k :=
  funext fun a => Fin.ext (by match a with | ⟨0, _⟩ => rfl | ⟨1, _⟩ => rfl)

/-- and x at (p, q, k); -/
private theorem lidx_eq (i : S4x2048x4096.Idx) (k : Fin 4096) : lidx_main_v28 i k = ix3 (i 0) (i 1) k :=
  funext fun a => Fin.ext (by match a with | ⟨0, _⟩ => rfl | ⟨1, _⟩ => rfl | ⟨2, _⟩ => rfl)

/-- the bias, spread over the first two axes, is read at o. -/
private theorem bidx_eq (i : S4x2048x4096.Idx) : idx_main_v29 (idx_main_v30 i) = ix1 (i 2) :=
  funext fun a => Fin.ext (by match a with | ⟨0, _⟩ => rfl)

/-- A column of 4096 entries spread along the rows is read, at (o, k), at (o, 0): the scale, -/
private theorem cidx26_eq (o k : Fin 4096) : idx_main_v26 (ix2 o k) = ix2 o (0 : Fin 1) :=
  funext fun a => Fin.ext (by match a with | ⟨0, _⟩ => rfl | ⟨1, _⟩ => rfl)

/-- the zero that is subtracted, -/
private theorem cidx24_eq (o k : Fin 4096) : idx_main_v24 (ix2 o k) = ix2 o (0 : Fin 1) :=
  funext fun a => Fin.ext (by match a with | ⟨0, _⟩ => rfl | ⟨1, _⟩ => rfl)

/-- and the zero that is added. -/
private theorem cidx21_eq (o k : Fin 4096) : idx_main_v21 (ix2 o k) = ix2 o (0 : Fin 1) :=
  funext fun a => Fin.ext (by match a with | ⟨0, _⟩ => rfl | ⟨1, _⟩ => rfl)

/-- The weight at (o, k) is the weight entry of the gathered table's entry, the base entry, and row o's scale and zero:
    every operation acts entry by entry, the literals are the same words, the two clips take their bounds in the same
    order, and 1 / (1 + e^(−a)) is the logistic function. -/
private theorem w_elt (x1 : (⟨S4096x8, .f32⟩ : BufTy).Contents (Elt Ideal))
    (x2 : (⟨S2097152, .i32⟩ : BufTy).Contents (Elt Ideal)) (x3 : (⟨S4096x4096, .i32⟩ : BufTy).Contents (Elt Ideal))
    (x4 x5 : (⟨S4096x1, .f32⟩ : BufTy).Contents (Elt Ideal)) (o k : Fin 4096) :
    val_main_v27 (F := Ideal) x1 x2 x3 x4 x5 (ix2 o k)
      = Cert.Spec.wqElt (val_main_v7 (F := Ideal) x1 x2 (ix2 o k)) (x3 (ix2 o k)) (x4 (ix2 o (0 : Fin 1))) (x5 (ix2 o (0 : Fin 1))) := by
  rw [val_main_v27_apply, val_main_v26_apply, val_main_v25_apply, val_main_v24_apply, val_main_v23_apply,
    val_main_call1_v4_apply, val_main_call1_v3_apply, val_main_cst_7_apply, val_main_call1_v2_apply,
    val_main_call1_v1_apply, val_main_call1_v0_apply, val_main_cst_6_apply, val_main_v22_apply, val_main_v21_apply,
    val_main_v20_apply, val_main_v19_apply, val_main_v18_apply, val_main_call0_v4_apply, val_main_call0_v3_apply,
    val_main_cst_5_apply, val_main_call0_v2_apply, val_main_call0_v1_apply, val_main_call0_v0_apply,
    val_main_cst_4_apply, val_main_v17_apply, val_main_v16_apply, val_main_cst_3_apply, val_main_v15_apply,
    val_main_v14_apply, val_main_cst_2_apply, val_main_v13_apply, val_main_v12_apply, val_main_cst_1_apply,
    val_main_v11_apply, val_main_v10_apply, val_main_cst_apply, val_main_v9_apply, val_main_v8_apply]
  rw [logistic_spelt, cidx26_eq, cidx21_eq, cidx24_eq]
  rfl

/-- The program's result, entry by entry, is the common function of its arguments, its gathered table kept as one term. -/
theorem ref_out (x0 : (⟨S4x2048x4096, .f32⟩ : BufTy).Contents (Elt Ideal)) (x1 : (⟨S4096x8, .f32⟩ : BufTy).Contents (Elt Ideal))
    (x2 : (⟨S2097152, .i32⟩ : BufTy).Contents (Elt Ideal)) (x3 : (⟨S4096x4096, .i32⟩ : BufTy).Contents (Elt Ideal))
    (x4 x5 : (⟨S4096x1, .f32⟩ : BufTy).Contents (Elt Ideal)) (x6 : (⟨S4096, .f32⟩ : BufTy).Contents (Elt Ideal)) :
    val_main_v31 (F := Ideal) x0 x1 x2 x3 x4 x5 x6 = Cert.Spec.out x0 (val_main_v7 (F := Ideal) x1 x2) x3 x4 x5 x6 := by
  funext i
  rw [Cert.Spec.out, Cert.Spec.mmElt_eq, val_main_v31_apply, val_main_v28_apply, val_main_v30_apply, val_main_v29_apply,
    bidx_eq]
  have h : ∀ k : Fin 4096,
      x0 (lidx_main_v28 i k) * val_main_v27 (F := Ideal) x1 x2 x3 x4 x5 (ridx_main_v28 i k)
        = x0 (ix3 (i 0) (i 1) k) * Cert.Spec.wqElt (val_main_v7 (F := Ideal) x1 x2 (ix2 (i 2) k)) (x3 (ix2 (i 2) k))
            (x4 (ix2 (i 2) (0 : Fin 1))) (x5 (ix2 (i 2) (0 : Fin 1))) := fun k => by
    rw [lidx_eq, ridx_eq]
    exact congrArg (x0 (ix3 (i 0) (i 1) k) * ·) (w_elt x1 x2 x3 x4 x5 (i 2) k)
  rw [Finset.sum_congr rfl fun k _ => h k]
  rfl

end Cert.ReferenceIdeal.RefValue

end
-- ==== Proof.lean ====
/-
  The certificate: a quantised linear layer. Both programs gather rows of a code book into a 4096 × 4096 table α, turn it
  into a weight  W = scale · (clamp₀¹⁵(base + clamp₀¹(σ(α)·c₁ + c₂) + zero) − zero)  row by row, and return x·Wᵀ + bias.
  The first program computes W in one kernel region (sixteen row blocks) and the product in a second one, which adds
  the inner products over the first and the last 2048 columns in a scratch block and then the bias; the second program
  is plain array operations, its logistic function spelt 1 / (1 + e^(−a)). On the extended reals the two weights are the
  same function entry by entry (that quotient IS the logistic function; every literal is the same word on both sides),
  and the whole inner product is the sum of its two halves because addition is commutative and associative there; no
  finiteness of the inputs is used.
  The frames: the first program's run is followed buffer by buffer through its five stretches, at either float
  instance; the second program's run is its list of host operations.
-/
import proofs.«164747_j21878563405861_1_alg».proof.Defs
import proofs.«164747_j21878563405861_1_alg».proof.Proof.Gen.Kernel
import proofs.«164747_j21878563405861_1_alg».proof.Proof.Gen.KernelIdeal
import proofs.«164747_j21878563405861_1_alg».proof.Proof.Gen.ReferenceIdeal
import proofs.«164747_j21878563405861_1_alg».proof.Proof.Gen.Pre_finite_inputs
import proofs.«164747_j21878563405861_1_alg».proof.Proof.Gen.ReferenceIdeal.Run
import proofs.«164747_j21878563405861_1_alg».proof.Proof.Gen.ReferenceIdeal.Read
import proofs.«164747_j21878563405861_1_alg».proof.Proof.BitsSide.Run
import proofs.«164747_j21878563405861_1_alg».proof.Proof.IdealSide.Run
import proofs.«164747_j21878563405861_1_alg».proof.Proof.IdealSide.KernelValue
import proofs.«164747_j21878563405861_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The gathered, re-laid table is one term in both programs: the same host operations over the same shapes. -/
theorem table_eq (x1 : Cert.KernelIdeal.S4096x8.Idx → EReal) (x2 : Cert.KernelIdeal.S2097152.Idx → BitVec 32) :
    Cert.KernelIdeal.Hand.alphaOf x1 x2 = Cert.ReferenceIdeal.Read.val_main_v7 (F := Ideal) x1 x2 := by
  unfold Cert.KernelIdeal.Hand.alphaOf Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c_0 Cert.ReferenceIdeal.Read.val_main_c
  rfl

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the common function of the arguments in their result
    arrays: the first by its run followed through the five stretches, the second by its host operations read one at a
    time, the gathered table the same term in both. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W5 m c (Proc.devRef .tc Cert.KernelIdeal.main_v12), ?_, ?_⟩
  · exact (θ_run Cert.KernelIdeal.defs _ _).mono (fun r h c =>
      ⟨h c _ (Cert.KernelIdeal.Hand.mem_uc Cert.KernelIdeal.main_v12 (by decide)),
       (h c _ (Cert.KernelIdeal.Hand.mem_uc Cert.KernelIdeal.main_arg0 (by decide))).trans (Cert.KernelIdeal.Hand.W5_args m c).1,
       (h c _ (Cert.KernelIdeal.Hand.mem_uc Cert.KernelIdeal.main_arg1 (by decide))).trans (Cert.KernelIdeal.Hand.W5_args m c).2.1,
       (h c _ (Cert.KernelIdeal.Hand.mem_uc Cert.KernelIdeal.main_arg2 (by decide))).trans (Cert.KernelIdeal.Hand.W5_args m c).2.2.1,
       (h c _ (Cert.KernelIdeal.Hand.mem_uc Cert.KernelIdeal.main_arg3 (by decide))).trans (Cert.KernelIdeal.Hand.W5_args m c).2.2.2.1,
       (h c _ (Cert.KernelIdeal.Hand.mem_uc Cert.KernelIdeal.main_arg4 (by decide))).trans (Cert.KernelIdeal.Hand.W5_args m c).2.2.2.2.1,
       (h c _ (Cert.KernelIdeal.Hand.mem_uc Cert.KernelIdeal.main_arg5 (by decide))).trans (Cert.KernelIdeal.Hand.W5_args m c).2.2.2.2.2.1,
       (h c _ (Cert.KernelIdeal.Hand.mem_uc Cert.KernelIdeal.main_arg6 (by decide))).trans (Cert.KernelIdeal.Hand.W5_args m c).2.2.2.2.2.2⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, Cert.ReferenceIdeal.RefValue.ref_out,
      (hagree c).1, (hagree c).2.1, (hagree c).2.2.1, (hagree c).2.2.2.1, (hagree c).2.2.2.2.1, (hagree c).2.2.2.2.2.1,
      (hagree c).2.2.2.2.2.2, ← table_eq]
    exact (Cert.KernelIdeal.Hand.kernel_out m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
